-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S64x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_cst_2 : FVec F S_ .f32 := constant S_ .f32 0x00000000#32
  let main_v9 : FVec F S4096x1024 .f32 := broadcastInDim S4096x1024 ![] bcast_S_S4096x1024 main_cst_2
  let main_v10 : IVec S4096x1024 1 := cmpf .oge main_arg1 main_v9
  let main_c_3 : IVec S_ 1 := constantI S_ 1 1#1
  let main_v11 : IVec S_ 1 := (fun x v => Host.reduce IntOp.andi x v reducesTo_S4096x1024_S_d0_1 h_S_) main_v10 main_c_3
  let main_v12 : IVec S_ 1 := andi main_v8 main_v11
  main_v12
-- ==== Kernel.lean ====
abbrev S4096x1024 : Shape := ⟨2, ![4096, 1024]⟩
abbrev S4096x9900 : Shape := ⟨2, ![4096, 9900]⟩
abbrev S64x1024 : Shape := ⟨2, ![64, 1024]⟩
abbrev S64x9900 : Shape := ⟨2, ![64, 9900]⟩
abbrev S64x128x128 : Shape := ⟨3, ![64, 128, 128]⟩
abbrev S64x128 : Shape := ⟨2, ![64, 128]⟩
abbrev S64x128x1 : Shape := ⟨3, ![64, 128, 1]⟩
abbrev S64x1x128 : Shape := ⟨3, ![64, 1, 128]⟩
abbrev S64x1x44 : Shape := ⟨3, ![64, 1, 44]⟩
abbrev S64x44 : Shape := ⟨2, ![64, 44]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x9900, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x9900, .f32⟩
  | .local _ .vmem, ⟨5, _⟩ => ⟨S64x9900, .f32⟩
  | .local _ .vmem, ⟨6, _⟩ => ⟨S64x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v239 : BitVec 32 := Scalar.muli arg5 c128_i32
  v239
def k0_off1 (k0_t1 : Fin k0_t1_loop.trips) : Fin 2 → Nat :=
  let c0_239 : Index := 0#32
  let c0_i32 : BitVec 32 := 0#32
  let c1_i32 : BitVec 32 := 1#32
  let arg5 : BitVec 32 := Scf.iv c0_i32 c1_i32 k0_t1
  let c128_i32 : BitVec 32 := 128#32
  let v239 : BitVec 32 := Scalar.muli arg5 c128_i32
  let v240 : BitVec 32 := v239
  let v241 : Index := Scalar.indexCast v240
  ![0, v241.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x9900 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  h_S64x128 : 0 < S64x128.numel
  bitsLt_bf16_f32 : FTy.bits .bf16 < FTy.bits .f32
  iota_S64x128x128_d2_w32 : S64x128x128.Iotas .tc 32 [2]
  shapeCasts_S64x128_S64x128x1 : S64x128.ShapeCasts S64x128x1
  broadcasts_S64x128x1_S64x128x128 : S64x128x1.Broadcasts S64x128x128
  natLt_1_32 : 1 < 32
  inb_S64x128x128_S64x1x128_0_0_0 : ∀ a, (![0, 0, 0] : Fin 3 → Nat) a + S64x1x128.size a ≤ S64x128x128.size a
  h_S64x1x128 : 0 < S64x1x128.numel
  shapeCasts_S64x1x128_S64x128 : S64x1x128.ShapeCasts S64x128
  inb_S64x9900_S64x128_0_0 : ∀ a, (![0, 0] : Fin 2 → Nat) a + S64x128.size a ≤ S64x9900.size a
  inb_S64x128x128_S64x1x128_0_1_0 : ∀ a, (![0, 1, 0] : Fin 3 → Nat) a + S64x1x128.size a ≤ S64x128x128.size a
  inb_S64x9900_S64x128_0_128 : ∀ a, (![0, 128] : Fin 2 → Nat) a + S64x128.size a ≤ S64x9900.size a
  inb_S64x128x128_S64x1x128_0_2_0 : ∀ a, (![0, 2, 0] : Fin 3 → Nat) a + S64x1x128.size a ≤ S64x128x128.size a
  inb_S64x9900_S64x128_0_256 : ∀ a, (![0, 256] : Fin 2 → Nat) a + S64x128.size a ≤ S64x9900.size a
  inb_S64x128x128_S64x1x128_0_3_0 : ∀ a, (![0, 3, 0] : Fin 3 → Nat) a + S64x1x128.size a ≤ S64x128x128.size a
  inb_S64x9900_S64x128_0_384 : ∀ a, (![0, 384] : Fin 2 → Nat) a + S64x128.size a ≤ S64x9900.size a
  inb_S64x128x128_S64x1x128_0_4_0 : ∀ a, (![0, 4, 0] : Fin 3 → Nat) a + S64x1x128.size a ≤ S64x128x128.size a
  inb_S64x9900_S64x128_0_512 : ∀ a, (![0, 512] : Fin 2 → Nat) a + S64x128.size a ≤ S64x9900.size a
  inb_S64x128x128_S64x1x128_0_5_0 : ∀ a, (![0, 5, 0] : Fin 3 → Nat) a + S64x1x128.size a ≤ S64x128x128.size a
  inb_S64x9900_S64x128_0_640 : ∀ a, (![0, 640] : Fin 2 → Nat) a + S64x128.size a ≤ S64x9900.size a
  inb_S64x128x128_S64x1x128_0_6_0 : ∀ a, (![0, 6, 0] : Fin 3 → Nat) a + S64x1x128.size a ≤ S64x128x128.size a
  inb_S64x9900_S64x128_0_768 : ∀ a, (![0, 768] : Fin 2 → Nat) a + S64x128.size a ≤ S64x9900.size a
  inb_S64x128x128_S64x1x128_0_7_0 : ∀ a, (![0, 7, 0] : Fin 3 → Nat) a + S64x1x128.size a ≤ S64x128x128.size a
  inb_S64x9900_S64x128_0_896 : ∀ a, (![0, 896] : Fin 2 → Nat) a + S64x128.size a ≤ S64x9900.size a
  inb_S64x128x128_S64x1x128_0_8_0 : ∀ a, (![0, 8, 0] : Fin 3 → Nat) a + S64x1x128.size a ≤ S64x128x128.size a
  inb_S64x9900_S64x128_0_1024 : ∀ a, (![0, 1024] : Fin 2 → Nat) a + S64x128.size a ≤ S64x9900.size a
  inb_S64x128x128_S64x1x128_0_9_0 : ∀ a, (![0, 9, 0] : Fin 3 → Nat) a + S64x1x128.size a ≤ S64x128x128.size a
  inb_S64x9900_S64x128_0_1152 : ∀ a, (![0, 1152] : Fin 2 → Nat) a + S64x128.size a ≤ S64x9900.size a
  inb_S64x128x128_S64x1x128_0_10_0 : ∀ a, (![0, 10, 0] : Fin 3 → Nat) a + S64x1x128.size a ≤ S64x128x128.size a
  inb_S64x9900_S64x128_0_1280 : ∀ a, (![0, 1280] : Fin 2 → Nat) a + S64x128.size a ≤ S64x9900.size a
  inb_S64x128x128_S64x1x128_0_11_0 : ∀ a, (![0, 11, 0] : Fin 3 → Nat) a + S64x1x128.size a ≤ S64x128x128.size a
  inb_S64x9900_S64x128_0_1408 : ∀ a, (![0, 1408] : Fin 2 → Nat) a + S64x128.size a ≤ S64x9900.size a
  inb_S64x128x128_S64x1x128_0_12_0 : ∀ a, (![0, 12, 0] : Fin 3 → Nat) a + S64x1x128.size a ≤ S64x128x128.size a
  inb_S64x9900_S64x128_0_1536 : ∀ a, (![0, 1536] : Fin 2 → Nat) a + S64x128.size a ≤ S64x9900.size a
  inb_S64x128x128_S64x1x128_0_13_0 : ∀ a, (![0, 13, 0] : Fin 3 → Nat) a + S64x1x128.size a ≤ S64x128x128.size a
  inb_S64x9900_S64x128_0_1664 : ∀ a, (![0, 1664] : Fin 2 → Nat) a + S64x128.size a ≤ S64x9900.size a
  inb_S64x128x128_S64x1x128_0_14_0 : ∀ a, (![0, 14, 0] : Fin 3 → Nat) a + S64x1x128.size a ≤ S64x128x128.size a
  inb_S64x9900_S64x128_0_1792 : ∀ a, (![0, 1792] : Fin 2 → Nat) a + S64x128.size a ≤ S64x9900.size a
  inb_S64x128x128_S64x1x128_0_15_0 : ∀ a, (![0, 15, 0] : Fin 3 → Nat) a + S64x1x128.size a ≤ S64x128x128.size a
  inb_S64x9900_S64x128_0_1920 : ∀ a, (![0, 1920] : Fin 2 → Nat) a + S64x128.size a ≤ S64x9900.size a
  inb_S64x128x128_S64x1x128_0_16_0 : ∀ a, (![0, 16, 0] : Fin 3 → Nat) a + S64x1x128.size a ≤ S64x128x128.size a
  inb_S64x9900_S64x128_0_2048 : ∀ a, (![0, 2048] : Fin 2 → Nat) a + S64x128.size a ≤ S64x9900.size a
  inb_S64x128x128_S64x1x128_0_17_0 : ∀ a, (![0, 17, 0] : Fin 3 → Nat) a + S64x1x128.size a ≤ S64x128x128.size a
  inb_S64x9900_S64x128_0_2176 : ∀ a, (![0, 2176] : Fin 2 → Nat) a + S64x128.size a ≤ S64x9900.size a
  inb_S64x128x128_S64x1x128_0_18_0 : ∀ a, (![0, 18, 0] : Fin 3 → Nat) a + S64x1x128.size a ≤ S64x128x128.size a
  inb_S64x9900_S64x128_0_2304 : ∀ a, (![0, 2304] : Fin 2 → Nat) a + S64x128.size a ≤ S64x9900.size a
  inb_S64x128x128_S64x1x128_0_19_0 : ∀ a, (![0, 19, 0] : Fin 3 → Nat) a + S64x1x128.size a ≤ S64x128x128.size a
  inb_S64x9900_S64x128_0_2432 : ∀ a, (![0, 2432] : Fin 2 → Nat) a + S64x128.size a ≤ S64x9900.size a
  inb_S64x128x128_S64x1x128_0_20_0 : ∀ a, (![0, 20, 0] : Fin 3 → Nat) a + S64x1x128.size a ≤ S64x128x128.size a
  inb_S64x9900_S64x128_0_2560 : ∀ a, (![0, 2560] : Fin 2 → Nat) a + S64x128.size a ≤ S64x9900.size a
  inb_S64x128x128_S64x1x128_0_21_0 : ∀ a, (![0, 21, 0] : Fin 3 → Nat) a + S64x1x128.size a ≤ S64x128x128.size a
  inb_S64x9900_S64x128_0_2688 : ∀ a, (![0, 2688] : Fin 2 → Nat) a + S64x128.size a ≤ S64x9900.size a
  inb_S64x128x128_S64x1x128_0_22_0 : ∀ a, (![0, 22, 0] : Fin 3 → Nat) a + S64x1x128.size a ≤ S64x128x128.size a
  inb_S64x9900_S64x128_0_2816 : ∀ a, (![0, 2816] : Fin 2 → Nat) a + S64x128.size a ≤ S64x9900.size a
  inb_S64x128x128_S64x1x128_0_23_0 : ∀ a, (![0, 23, 0] : Fin 3 → Nat) a + S64x1x128.size a ≤ S64x128x128.size a
  inb_S64x9900_S64x128_0_2944 : ∀ a, (![0, 2944] : Fin 2 → Nat) a + S64x128.size a ≤ S64x9900.size a
  inb_S64x128x128_S64x1x128_0_24_0 : ∀ a, (![0, 24, 0] : Fin 3 → Nat) a + S64x1x128.size a ≤ S64x128x128.size a
  inb_S64x9900_S64x128_0_3072 : ∀ a, (![0, 3072] : Fin 2 → Nat) a + S64x128.size a ≤ S64x9900.size a
  inb_S64x128x128_S64x1x128_0_25_0 : ∀ a, (![0, 25, 0] : Fin 3 → Nat) a + S64x1x128.size a ≤ S64x128x128.size a
  inb_S64x9900_S64x128_0_3200 : ∀ a, (![0, 3200] : Fin 2 → Nat) a + S64x128.size a ≤ S64x9900.size a
  inb_S64x128x128_S64x1x128_0_26_0 : ∀ a, (![0, 26, 0] : Fin 3 → Nat) a + S64x1x128.size a ≤ S64x128x128.size a
  inb_S64x9900_S64x128_0_3328 : ∀ a, (![0, 3328] : Fin 2 → Nat) a + S64x128.size a ≤ S64x9900.size a
  inb_S64x128x128_S64x1x128_0_27_0 : ∀ a, (![0, 27, 0] : Fin 3 → Nat) a + S64x1x128.size a ≤ S64x128x128.size a
  inb_S64x9900_S64x128_0_3456 : ∀ a, (![0, 3456] : Fin 2 → Nat) a + S64x128.size a ≤ S64x9900.size a
  inb_S64x128x128_S64x1x128_0_28_0 : ∀ a, (![0, 28, 0] : Fin 3 → Nat) a + S64x1x128.size a ≤ S64x128x128.size a
  inb_S64x9900_S64x128_0_3584 : ∀ a, (![0, 3584] : Fin 2 → Nat) a + S64x128.size a ≤ S64x9900.size a
  inb_S64x128x128_S64x1x128_0_29_0 : ∀ a, (![0, 29, 0] : Fin 3 → Nat) a + S64x1x128.size a ≤ S64x128x128.size a
  inb_S64x9900_S64x128_0_3712 : ∀ a, (![0, 3712] : Fin 2 → Nat) a + S64x128.size a ≤ S64x9900.size a
  inb_S64x128x128_S64x1x128_0_30_0 : ∀ a, (![0, 30, 0] : Fin 3 → Nat) a + S64x1x128.size a ≤ S64x128x128.size a
  inb_S64x9900_S64x128_0_3840 : ∀ a, (![0, 3840] : Fin 2 → Nat) a + S64x128.size a ≤ S64x9900.size a
  inb_S64x128x128_S64x1x128_0_31_0 : ∀ a, (![0, 31, 0] : Fin 3 → Nat) a + S64x1x128.size a ≤ S64x128x128.size a
  inb_S64x9900_S64x128_0_3968 : ∀ a, (![0, 3968] : Fin 2 → Nat) a + S64x128.size a ≤ S64x9900.size a
  inb_S64x128x128_S64x1x128_0_32_0 : ∀ a, (![0, 32, 0] : Fin 3 → Nat) a + S64x1x128.size a ≤ S64x128x128.size a
  inb_S64x9900_S64x128_0_4096 : ∀ a, (![0, 4096] : Fin 2 → Nat) a + S64x128.size a ≤ S64x9900.size a
  inb_S64x128x128_S64x1x128_0_33_0 : ∀ a, (![0, 33, 0] : Fin 3 → Nat) a + S64x1x128.size a ≤ S64x128x128.size a
  inb_S64x9900_S64x128_0_4224 : ∀ a, (![0, 4224] : Fin 2 → Nat) a + S64x128.size a ≤ S64x9900.size a
  inb_S64x128x128_S64x1x128_0_34_0 : ∀ a, (![0, 34, 0] : Fin 3 → Nat) a + S64x1x128.size a ≤ S64x128x128.size a
  inb_S64x9900_S64x128_0_4352 : ∀ a, (![0, 4352] : Fin 2 → Nat) a + S64x128.size a ≤ S64x9900.size a
  inb_S64x128x128_S64x1x128_0_35_0 : ∀ a, (![0, 35, 0] : Fin 3 → Nat) a + S64x1x128.size a ≤ S64x128x128.size a
  inb_S64x9900_S64x128_0_4480 : ∀ a, (![0, 4480] : Fin 2 → Nat) a + S64x128.size a ≤ S64x9900.size a
  inb_S64x128x128_S64x1x128_0_36_0 : ∀ a, (![0, 36, 0] : Fin 3 → Nat) a + S64x1x128.size a ≤ S64x128x128.size a
  inb_S64x9900_S64x128_0_4608 : ∀ a, (![0, 4608] : Fin 2 → Nat) a + S64x128.size a ≤ S64x9900.size a
  inb_S64x128x128_S64x1x128_0_37_0 : ∀ a, (![0, 37, 0] : Fin 3 → Nat) a + S64x1x128.size a ≤ S64x128x128.size a
  inb_S64x9900_S64x128_0_4736 : ∀ a, (![0, 4736] : Fin 2 → Nat) a + S64x128.size a ≤ S64x9900.size a
  inb_S64x128x128_S64x1x128_0_38_0 : ∀ a, (![0, 38, 0] : Fin 3 → Nat) a + S64x1x128.size a ≤ S64x128x128.size a
  inb_S64x9900_S64x128_0_4864 : ∀ a, (![0, 4864] : Fin 2 → Nat) a + S64x128.size a ≤ S64x9900.size a
  inb_S64x128x128_S64x1x128_0_39_0 : ∀ a, (![0, 39, 0] : Fin 3 → Nat) a + S64x1x128.size a ≤ S64x128x128.size a
  inb_S64x9900_S64x128_0_4992 : ∀ a, (![0, 4992] : Fin 2 → Nat) a + S64x128.size a ≤ S64x9900.size a
  inb_S64x128x128_S64x1x128_0_40_0 : ∀ a, (![0, 40, 0] : Fin 3 → Nat) a + S64x1x128.size a ≤ S64x128x128.size a
  inb_S64x9900_S64x128_0_5120 : ∀ a, (![0, 5120] : Fin 2 → Nat) a + S64x128.size a ≤ S64x9900.size a
  inb_S64x128x128_S64x1x128_0_41_0 : ∀ a, (![0, 41, 0] : Fin 3 → Nat) a + S64x1x128.size a ≤ S64x128x128.size a
  inb_S64x9900_S64x128_0_5248 : ∀ a, (![0, 5248] : Fin 2 → Nat) a + S64x128.size a ≤ S64x9900.size a
  inb_S64x128x128_S64x1x128_0_42_0 : ∀ a, (![0, 42, 0] : Fin 3 → Nat) a + S64x1x128.size a ≤ S64x128x128.size a
  inb_S64x9900_S64x128_0_5376 : ∀ a, (![0, 5376] : Fin 2 → Nat) a + S64x128.size a ≤ S64x9900.size a
  inb_S64x128x128_S64x1x128_0_43_0 : ∀ a, (![0, 43, 0] : Fin 3 → Nat) a + S64x1x128.size a ≤ S64x128x128.size a
  inb_S64x9900_S64x128_0_5504 : ∀ a, (![0, 5504] : Fin 2 → Nat) a + S64x128.size a ≤ S64x9900.size a
  inb_S64x128x128_S64x1x128_0_44_0 : ∀ a, (![0, 44, 0] : Fin 3 → Nat) a + S64x1x128.size a ≤ S64x128x128.size a
  inb_S64x9900_S64x128_0_5632 : ∀ a, (![0, 5632] : Fin 2 → Nat) a + S64x128.size a ≤ S64x9900.size a
  inb_S64x128x128_S64x1x128_0_45_0 : ∀ a, (![0, 45, 0] : Fin 3 → Nat) a + S64x1x128.size a ≤ S64x128x128.size a
  inb_S64x9900_S64x128_0_5760 : ∀ a, (![0, 5760] : Fin 2 → Nat) a + S64x128.size a ≤ S64x9900.size a
  inb_S64x128x128_S64x1x128_0_46_0 : ∀ a, (![0, 46, 0] : Fin 3 → Nat) a + S64x1x128.size a ≤ S64x128x128.size a
  inb_S64x9900_S64x128_0_5888 : ∀ a, (![0, 5888] : Fin 2 → Nat) a + S64x128.size a ≤ S64x9900.size a
  inb_S64x128x128_S64x1x128_0_47_0 : ∀ a, (![0, 47, 0] : Fin 3 → Nat) a + S64x1x128.size a ≤ S64x128x128.size a
  inb_S64x9900_S64x128_0_6016 : ∀ a, (![0, 6016] : Fin 2 → Nat) a + S64x128.size a ≤ S64x9900.size a
  inb_S64x128x128_S64x1x128_0_48_0 : ∀ a, (![0, 48, 0] : Fin 3 → Nat) a + S64x1x128.size a ≤ S64x128x128.size a
  inb_S64x9900_S64x128_0_6144 : ∀ a, (![0, 6144] : Fin 2 → Nat) a + S64x128.size a ≤ S64x9900.size a
  inb_S64x128x128_S64x1x128_0_49_0 : ∀ a, (![0, 49, 0] : Fin 3 → Nat) a + S64x1x128.size a ≤ S64x128x128.size a
  inb_S64x9900_S64x128_0_6272 : ∀ a, (![0, 6272] : Fin 2 → Nat) a + S64x128.size a ≤ S64x9900.size a
  inb_S64x128x128_S64x1x128_0_50_0 : ∀ a, (![0, 50, 0] : Fin 3 → Nat) a + S64x1x128.size a ≤ S64x128x128.size a
  inb_S64x9900_S64x128_0_6400 : ∀ a, (![0, 6400] : Fin 2 → Nat) a + S64x128.size a ≤ S64x9900.size a
  inb_S64x128x128_S64x1x128_0_51_0 : ∀ a, (![0, 51, 0] : Fin 3 → Nat) a + S64x1x128.size a ≤ S64x128x128.size a
  inb_S64x9900_S64x128_0_6528 : ∀ a, (![0, 6528] : Fin 2 → Nat) a + S64x128.size a ≤ S64x9900.size a
  inb_S64x128x128_S64x1x128_0_52_0 : ∀ a, (![0, 52, 0] : Fin 3 → Nat) a + S64x1x128.size a ≤ S64x128x128.size a
  inb_S64x9900_S64x128_0_6656 : ∀ a, (![0, 6656] : Fin 2 → Nat) a + S64x128.size a ≤ S64x9900.size a
  inb_S64x128x128_S64x1x128_0_53_0 : ∀ a, (![0, 53, 0] : Fin 3 → Nat) a + S64x1x128.size a ≤ S64x128x128.size a
  inb_S64x9900_S64x128_0_6784 : ∀ a, (![0, 6784] : Fin 2 → Nat) a + S64x128.size a ≤ S64x9900.size a
  inb_S64x128x128_S64x1x128_0_54_0 : ∀ a, (![0, 54, 0] : Fin 3 → Nat) a + S64x1x128.size a ≤ S64x128x128.size a
  inb_S64x9900_S64x128_0_6912 : ∀ a, (![0, 6912] : Fin 2 → Nat) a + S64x128.size a ≤ S64x9900.size a
  inb_S64x128x128_S64x1x128_0_55_0 : ∀ a, (![0, 55, 0] : Fin 3 → Nat) a + S64x1x128.size a ≤ S64x128x128.size a
  inb_S64x9900_S64x128_0_7040 : ∀ a, (![0, 7040] : Fin 2 → Nat) a + S64x128.size a ≤ S64x9900.size a
  inb_S64x128x128_S64x1x128_0_56_0 : ∀ a, (![0, 56, 0] : Fin 3 → Nat) a + S64x1x128.size a ≤ S64x128x128.size a
  inb_S64x9900_S64x128_0_7168 : ∀ a, (![0, 7168] : Fin 2 → Nat) a + S64x128.size a ≤ S64x9900.size a
  inb_S64x128x128_S64x1x128_0_57_0 : ∀ a, (![0, 57, 0] : Fin 3 → Nat) a + S64x1x128.size a ≤ S64x128x128.size a
  inb_S64x9900_S64x128_0_7296 : ∀ a, (![0, 7296] : Fin 2 → Nat) a + S64x128.size a ≤ S64x9900.size a
  inb_S64x128x128_S64x1x128_0_58_0 : ∀ a, (![0, 58, 0] : Fin 3 → Nat) a + S64x1x128.size a ≤ S64x128x128.size a
  inb_S64x9900_S64x128_0_7424 : ∀ a, (![0, 7424] : Fin 2 → Nat) a + S64x128.size a ≤ S64x9900.size a
  inb_S64x128x128_S64x1x128_0_59_0 : ∀ a, (![0, 59, 0] : Fin 3 → Nat) a + S64x1x128.size a ≤ S64x128x128.size a
  inb_S64x9900_S64x128_0_7552 : ∀ a, (![0, 7552] : Fin 2 → Nat) a + S64x128.size a ≤ S64x9900.size a
  inb_S64x128x128_S64x1x128_0_60_0 : ∀ a, (![0, 60, 0] : Fin 3 → Nat) a + S64x1x128.size a ≤ S64x128x128.size a
  inb_S64x9900_S64x128_0_7680 : ∀ a, (![0, 7680] : Fin 2 → Nat) a + S64x128.size a ≤ S64x9900.size a
  inb_S64x128x128_S64x1x128_0_61_0 : ∀ a, (![0, 61, 0] : Fin 3 → Nat) a + S64x1x128.size a ≤ S64x128x128.size a
  inb_S64x9900_S64x128_0_7808 : ∀ a, (![0, 7808] : Fin 2 → Nat) a + S64x128.size a ≤ S64x9900.size a
  inb_S64x128x128_S64x1x128_0_62_0 : ∀ a, (![0, 62, 0] : Fin 3 → Nat) a + S64x1x128.size a ≤ S64x128x128.size a
  inb_S64x9900_S64x128_0_7936 : ∀ a, (![0, 7936] : Fin 2 → Nat) a + S64x128.size a ≤ S64x9900.size a
  inb_S64x128x128_S64x1x128_0_63_0 : ∀ a, (![0, 63, 0] : Fin 3 → Nat) a + S64x1x128.size a ≤ S64x128x128.size a
  inb_S64x9900_S64x128_0_8064 : ∀ a, (![0, 8064] : Fin 2 → Nat) a + S64x128.size a ≤ S64x9900.size a
  inb_S64x128x128_S64x1x128_0_64_0 : ∀ a, (![0, 64, 0] : Fin 3 → Nat) a + S64x1x128.size a ≤ S64x128x128.size a
  inb_S64x9900_S64x128_0_8192 : ∀ a, (![0, 8192] : Fin 2 → Nat) a + S64x128.size a ≤ S64x9900.size a
  inb_S64x128x128_S64x1x128_0_65_0 : ∀ a, (![0, 65, 0] : Fin 3 → Nat) a + S64x1x128.size a ≤ S64x128x128.size a
  inb_S64x9900_S64x128_0_8320 : ∀ a, (![0, 8320] : Fin 2 → Nat) a + S64x128.size a ≤ S64x9900.size a
  inb_S64x128x128_S64x1x128_0_66_0 : ∀ a, (![0, 66, 0] : Fin 3 → Nat) a + S64x1x128.size a ≤ S64x128x128.size a
  inb_S64x9900_S64x128_0_8448 : ∀ a, (![0, 8448] : Fin 2 → Nat) a + S64x128.size a ≤ S64x9900.size a
  inb_S64x128x128_S64x1x128_0_67_0 : ∀ a, (![0, 67, 0] : Fin 3 → Nat) a + S64x1x128.size a ≤ S64x128x128.size a
  inb_S64x9900_S64x128_0_8576 : ∀ a, (![0, 8576] : Fin 2 → Nat) a + S64x128.size a ≤ S64x9900.size a
  inb_S64x128x128_S64x1x128_0_68_0 : ∀ a, (![0, 68, 0] : Fin 3 → Nat) a + S64x1x128.size a ≤ S64x128x128.size a
  inb_S64x9900_S64x128_0_8704 : ∀ a, (![0, 8704] : Fin 2 → Nat) a + S64x128.size a ≤ S64x9900.size a
  inb_S64x128x128_S64x1x128_0_69_0 : ∀ a, (![0, 69, 0] : Fin 3 → Nat) a + S64x1x128.size a ≤ S64x128x128.size a
  inb_S64x9900_S64x128_0_8832 : ∀ a, (![0, 8832] : Fin 2 → Nat) a + S64x128.size a ≤ S64x9900.size a
  inb_S64x128x128_S64x1x128_0_70_0 : ∀ a, (![0, 70, 0] : Fin 3 → Nat) a + S64x1x128.size a ≤ S64x128x128.size a
  inb_S64x9900_S64x128_0_8960 : ∀ a, (![0, 8960] : Fin 2 → Nat) a + S64x128.size a ≤ S64x9900.size a
  inb_S64x128x128_S64x1x128_0_71_0 : ∀ a, (![0, 71, 0] : Fin 3 → Nat) a + S64x1x128.size a ≤ S64x128x128.size a
  inb_S64x9900_S64x128_0_9088 : ∀ a, (![0, 9088] : Fin 2 → Nat) a + S64x128.size a ≤ S64x9900.size a
  inb_S64x128x128_S64x1x128_0_72_0 : ∀ a, (![0, 72, 0] : Fin 3 → Nat) a + S64x1x128.size a ≤ S64x128x128.size a
  inb_S64x9900_S64x128_0_9216 : ∀ a, (![0, 9216] : Fin 2 → Nat) a + S64x128.size a ≤ S64x9900.size a
  inb_S64x128x128_S64x1x128_0_73_0 : ∀ a, (![0, 73, 0] : Fin 3 → Nat) a + S64x1x128.size a ≤ S64x128x128.size a
  inb_S64x9900_S64x128_0_9344 : ∀ a, (![0, 9344] : Fin 2 → Nat) a + S64x128.size a ≤ S64x9900.size a
  inb_S64x128x128_S64x1x128_0_74_0 : ∀ a, (![0, 74, 0] : Fin 3 → Nat) a + S64x1x128.size a ≤ S64x128x128.size a
  inb_S64x9900_S64x128_0_9472 : ∀ a, (![0, 9472] : Fin 2 → Nat) a + S64x128.size a ≤ S64x9900.size a
  inb_S64x128x128_S64x1x128_0_75_0 : ∀ a, (![0, 75, 0] : Fin 3 → Nat) a + S64x1x128.size a ≤ S64x128x128.size a
  inb_S64x9900_S64x128_0_9600 : ∀ a, (![0, 9600] : Fin 2 → Nat) a + S64x128.size a ≤ S64x9900.size a
  inb_S64x128x128_S64x1x128_0_76_0 : ∀ a, (![0, 76, 0] : Fin 3 → Nat) a + S64x1x128.size a ≤ S64x128x128.size a
  inb_S64x9900_S64x128_0_9728 : ∀ a, (![0, 9728] : Fin 2 → Nat) a + S64x128.size a ≤ S64x9900.size a
  inb_S64x128x128_S64x1x44_0_77_0 : ∀ a, (![0, 77, 0] : Fin 3 → Nat) a + S64x1x44.size a ≤ S64x128x128.size a
  h_S64x1x44 : 0 < S64x1x44.numel
  shapeCasts_S64x1x44_S64x44 : S64x1x44.ShapeCasts S64x44
  inb_S64x9900_S64x44_0_9856 : ∀ a, (![0, 9856] : Fin 2 → Nat) a + S64x44.size a ≤ S64x9900.size a
  h_S64x44 : 0 < S64x44.numel
  dot_S64x128x128_S64x128x128_S64x128x128_1_1_2_2_0_0_wf : DotDims.WF S64x128x128 S64x128x128 S64x128x128 [1] [1] [2] [2] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x128.size a ≤ S64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S4096x1024.size a
  hwx0_0 : ∀ i : grid0.Coords, EltTy.bits .f32 = 32 ∨ (Rect.block (s := S4096x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S4096x1024.size a
  hwx0_1 : ∀ i : grid0.Coords, EltTy.bits .f32 = 32 ∨ (Rect.block (s := S4096x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x9900.size a ≤ S4096x9900.size a
  hwx0_2 : ∀ i : grid0.Coords, EltTy.bits .f32 = 32 ∨ (Rect.block (s := S4096x9900) S64x9900.size (cc0_transform_2 i) (hinb0_2 i)).WholeWords (EltTy.packing .f32)

variable [Facts₀]

def dot_S64x128x128_S64x128x128_S64x128x128_1_1_2_2_0_0 : DotDims S64x128x128 S64x128x128 S64x128x128 where
  lhsContracting := [1]
  rhsContracting := [1]
  lhsNonContracting := [2]
  rhsNonContracting := [2]
  lhsBatch := [0]
  rhsBatch := [0]
  wf := dot_S64x128x128_S64x128x128_S64x128x128_1_1_2_2_0_0_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x9900.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x9900 : Shape := ⟨2, ![4096, 9900]⟩
abbrev S4096x1024x1 : Shape := ⟨3, ![4096, 1024, 1]⟩
abbrev S4096x1024x2 : Shape := ⟨3, ![4096, 1024, 2]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .i1⟩
  | .hbm, ⟨5, _⟩ => ⟨S_, .f32⟩
  | .hbm, ⟨6, _⟩ => ⟨S4096x1024, .f32⟩
  | .hbm, ⟨7, _⟩ => ⟨S4096x1024, .i1⟩
  | .hbm, ⟨8, _⟩ => ⟨S4096x1024, .i1⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4096x1024, .i32⟩
  | .hbm, ⟨20, _⟩ => ⟨S4096x1024, .i32⟩
  | .hbm, ⟨21, _⟩ => ⟨S_, .i32⟩
  | .hbm, ⟨22, _⟩ => ⟨S4096x1024, .i32⟩
  | .hbm, ⟨23, _⟩ => ⟨S4096x1024, .i32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096, .i32⟩
  | .hbm, ⟨32, _⟩ => ⟨S4096x1, .i32⟩
  | .hbm, ⟨33, _⟩ => ⟨S4096x1024, .i32⟩
  | .hbm, ⟨34, _⟩ => ⟨S_, .f32⟩
  | .hbm, ⟨35, _⟩ => ⟨S4096x9900, .f32⟩
  | .hbm, ⟨36, _⟩ => ⟨S_, .i32⟩
  | .hbm, ⟨37, _⟩ => ⟨S4096x1024, .i32⟩
  | .hbm, ⟨38, _⟩ => ⟨S4096x1024, .i1⟩
  | .hbm, ⟨39, _⟩ => ⟨S_, .i32⟩
  | .hbm, ⟨40, _⟩ => ⟨S4096x1024, .i32⟩
  | .hbm, ⟨41, _⟩ => ⟨S4096x1024, .i32⟩
  | .hbm, ⟨42, _⟩ => ⟨S4096x1024, .i32⟩
  | .hbm, ⟨43, _⟩ => ⟨S_, .i32⟩
  | .hbm, ⟨44, _⟩ => ⟨S4096x1024, .i32⟩
  | .hbm, ⟨45, _⟩ => ⟨S4096x1024, .i1⟩
  | .hbm, ⟨46, _⟩ => ⟨S_, .i32⟩
  | .hbm, ⟨47, _⟩ => ⟨S4096x1024, .i32⟩
  | .hbm, ⟨48, _⟩ => ⟨S4096x1024, .i32⟩
  | .hbm, ⟨49, _⟩ => ⟨S4096x1024, .i32⟩
  | .hbm, ⟨50, _⟩ => ⟨S4096x1024x1, .i32⟩
  | .hbm, ⟨51, _⟩ => ⟨S4096x1024x1, .i32⟩
  | .hbm, ⟨52, _⟩ => ⟨S4096x1024x2, .i32⟩
  | .hbm, ⟨53, _⟩ => ⟨S4096x9900, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_c_7 : Ref sig .tc := ⟨.hbm, 36, rfl⟩
abbrev main_v18 : Ref sig .tc := ⟨.hbm, 37, rfl⟩
abbrev main_v19 : Ref sig .tc := ⟨.hbm, 38, rfl⟩
abbrev main_c_8 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_9 : Ref sig .tc := ⟨.hbm, 43, rfl⟩
abbrev main_v23 : Ref sig .tc := ⟨.hbm, 44, rfl⟩
abbrev main_v24 : Ref sig .tc := ⟨.hbm, 45, rfl⟩
abbrev main_c_10 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S_S4096x9900 : S_.BroadcastsInDim S4096x9900 (![] : Fin 0 → Fin S4096x9900.rank)
  bcast_S4096x1024_S4096x1024x1_0_1 : S4096x1024.BroadcastsInDim S4096x1024x1 (![0, 1] : Fin 2 → Fin S4096x1024x1.rank)
  concatenates_S4096x1024x1_S4096x1024x1_S4096x1024x2_d2 : Shape.Concatenates [S4096x1024x1, S4096x1024x1] S4096x1024x2 2
  scatter_S4096x9900_S4096x1024x2_S4096x1024_n_01_01_2_wf : ScatterDims.WF S4096x9900 S4096x1024x2 S4096x1024 [] [0, 1] [0, 1] 2

variable [Facts₀]

def scatter_S4096x9900_S4096x1024x2_S4096x1024_n_01_01_2 : ScatterDims S4096x9900 S4096x1024x2 S4096x1024 where
  updateWindowDims := []
  insertedWindowDims := [0, 1]
  scatterDimsToOperandDims := [0, 1]
  indexVectorDim := 2
  wf := scatter_S4096x9900_S4096x1024x2_S4096x1024_n_01_01_2_wf

class Facts : Prop extends Facts₀ where

variable [Facts]
-- ==== Proof.HistSpec.lean ====
/-
  The specification both programs are compared with: the binned spectrum as ONE function of the two argument
  arrays, at the ideal values.

  A peak at position `x` with intensity `y` falls in the bin `binOf x` — `(x − 10) / w` cut to an integer and clamped
  to `[0, 9899]`, `w` the binary value of the single-precision `0.1` — and contributes `√y` when `10 ≤ x < 1000` and
  nothing otherwise. Row `b` of the result holds, in column `j`, the sum of the contributions of the row's 1024 peaks
  whose bin is `j`.

  The second form of the contribution, `contribPow`, writes the square root as the power `y ^ (1/2)`; on a
  nonnegative real intensity the two are one number (`contrib_eq_contribPow`), and on a negative one they are not:
  the root is `⊥` there and Mathlib's real power a real.
-/
import Idealize.ShloMosaic.PureOps.Ideal
import Idealize.ShloMosaic.PureOps.Ideal.Laws
import Idealize.ShloMosaic.Lib.ValueIdx

noncomputable section

namespace Cert.Hist

open Idealize.ShloMosaic Idealize.ShloMosaic.ValueIdx

abbrev Rows : Shape := ⟨2, ![4096, 1024]⟩
abbrev Bins : Shape := ⟨2, ![4096, 9900]⟩

/-- The bin of a peak at position `x`: `(x − 10) / w` cut to a 32-bit integer, then clamped to `[0, 9899]`. -/
def binOf (x : Ideal .f32) : BitVec 32 :=
  IntOp.minsi 9899#32 (IntOp.maxsi 0#32
    (FloatOps.fptosi 32 (FloatOps.divf (FloatOps.subf x (FloatOps.ofBits .f32 0x41200000#32)) (FloatOps.ofBits .f32 0x3DCCCCCD#32))))

/-- Whether a peak at position `x` is counted: `10 ≤ x` and `x < 1000`. -/
def inRange (x : Ideal .f32) : BitVec 1 :=
  IntOp.andi (FloatOps.cmpf .oge x (FloatOps.ofBits .f32 0x41200000#32)) (FloatOps.cmpf .olt x (FloatOps.ofBits .f32 0x447A0000#32))

/-- What a peak at position `x` with intensity `y` adds to its bin: `√y` when counted, else zero. -/
def contrib (x y : Ideal .f32) : Ideal .f32 :=
  Scalar.select (inRange x) (FloatOps.sqrt y) (FloatOps.ofBits .f32 0x00000000#32)

/-- The same with the root written as the power `y ^ (1/2)`. -/
def contribPow (x y : Ideal .f32) : Ideal .f32 :=
  Scalar.select (inRange x) (FloatOps.hostPowf y (FloatOps.ofBits .f32 0x3F000000#32)) (FloatOps.ofBits .f32 0x00000000#32)

/-- The binned spectrum: at row `b` and column `j`, the sum over the row's peaks `p` whose bin is `j` of their
    contributions. -/
def hist (mz it : FVec Ideal Rows .f32) : FVec Ideal Bins .f32 :=
  fun i => ∑ p : Fin 1024,
    if (binOf (mz (ix2 (i 0) p))).toNat = (i 1).val then contrib (mz (ix2 (i 0) p)) (it (ix2 (i 0) p)) else 0

/-- The single-precision word `0x3F000000` is one half. -/
theorem ofBits_half : Ideal.ofBits .f32 0x3F000000#32 = ((1 / 2 : ℝ) : EReal) := by
  simp [Ideal.ofBits, Ideal.ieee, -EReal.coe_mul]; norm_num

/-- On a nonnegative real the square root is the power one half. -/
theorem sqrt_eq_pow_half (r : ℝ) (hr : 0 ≤ r) :
    (FloatOps.sqrt ((r : EReal) : Ideal .f32) : Ideal .f32) = FloatOps.hostPowf ((r : EReal) : Ideal .f32) (FloatOps.ofBits .f32 0x3F000000#32) := by
  show Ideal.sqrt (r : EReal) = Ideal.pow (r : EReal) (Ideal.ofBits .f32 0x3F000000#32)
  rw [ofBits_half, Ideal.sqrt_coe, Ideal.pow_coe_coe, if_neg (not_lt.mpr hr), Real.sqrt_eq_rpow]
  rfl

/-- So on a nonnegative real intensity the two forms of the contribution agree. -/
theorem contrib_eq_contribPow (x : Ideal .f32) (r : ℝ) (hr : 0 ≤ r) :
    contrib x ((r : EReal) : Ideal .f32) = contribPow x ((r : EReal) : Ideal .f32) := by
  unfold contrib contribPow
  rw [sqrt_eq_pow_half r hr]

/-- A counted contribution of a nonnegative real intensity is a real number. -/
theorem contrib_real (x : Ideal .f32) (r : ℝ) (hr : 0 ≤ r) :
    ∃ v : ℝ, contrib x ((r : EReal) : Ideal .f32) = ((v : EReal) : Ideal .f32) := by
  unfold contrib Scalar.select
  split
  · exact ⟨Real.sqrt r, by show Ideal.sqrt (r : EReal) = _; rw [Ideal.sqrt_coe, if_neg (not_lt.mpr hr)]⟩
  · exact ⟨0, by show Ideal.ofBits .f32 0x00000000#32 = _; rw [Ideal.ofBits_zero_f32]; rfl⟩

end Cert.Hist

end
-- ==== Proof.RefSide.lean ====
/-
  The reference computes the binned spectrum.

  Its result is a scatter-add into a zero array of the masked powers `y ^ (1/2)`, at the index pairs (row, bin) laid
  side by side along a last axis of size two. Read at row `b` and column `j`: zero plus the sum of the updates `(b', p)`
  whose pair is `(b, j)`, that is of the peaks `p` of row `b` whose bin is `j` (a row number and a clamped bin are
  never negative, so the wrap-around of negative indices changes nothing). On nonnegative real intensities the power
  is the square root, so this is `hist`.
-/
import proofs.«406923_j42545946034791_3_alg».proof.Proof.RefRun
import proofs.«406923_j42545946034791_3_alg».proof.Proof.RefRead
import proofs.«406923_j42545946034791_3_alg».proof.Proof.HistSpec

noncomputable section

namespace Cert.Hist.Ref

open Idealize.ShloMosaic Idealize.ShloMosaic.ValueIdx Cert.ReferenceIdeal Cert.ReferenceIdeal.Gen

/-! ## Where an update lands -/

/-- The scatter's dimension numbers: no window axes, both operand axes inserted and named by the index vector,
    which lies along the last axis of the index array. -/
abbrev sd : ScatterDims S4096x9900 S4096x1024x2 S4096x1024 := scatter_S4096x9900_S4096x1024x2_S4096x1024_n_01_01_2

/-- Component 0 of update `j`'s start index is read at `(j 0, j 1, 0)`. -/
theorem sd_siIdx0 (j : S4096x1024.Idx) (h : 0 < sd.scatterDimsToOperandDims.length) :
    sd.siIdx j ⟨0, h⟩ = ix3 (j 0) (j 1) 0 := by
  funext b
  match b with
  | ⟨0, _⟩ => rfl
  | ⟨1, _⟩ => rfl
  | ⟨2, _⟩ => rfl

/-- Component 1 of update `j`'s start index is read at `(j 0, j 1, 1)`. -/
theorem sd_siIdx1 (j : S4096x1024.Idx) (h : 1 < sd.scatterDimsToOperandDims.length) :
    sd.siIdx j ⟨1, h⟩ = ix3 (j 0) (j 1) 1 := by
  funext b
  match b with
  | ⟨0, _⟩ => rfl
  | ⟨1, _⟩ => rfl
  | ⟨2, _⟩ => rfl

/-- The start on operand axis 0 is the signed word at `(j 0, j 1, 0)`. -/
theorem sd_start0 (j : S4096x1024.Idx) (idx : IVec S4096x1024x2 32) :
    sd.start j idx 0 = (idx (ix3 (j 0) (j 1) 0)).toInt := by
  unfold ScatterDims.start
  rw [dif_pos (by decide)]
  exact congrArg (fun k => (idx k).toInt) (sd_siIdx0 j _)

/-- The start on operand axis 1 is the signed word at `(j 0, j 1, 1)`. -/
theorem sd_start1 (j : S4096x1024.Idx) (idx : IVec S4096x1024x2 32) :
    sd.start j idx 1 = (idx (ix3 (j 0) (j 1) 1)).toInt := by
  unfold ScatterDims.start
  rw [dif_pos (by decide)]
  exact congrArg (fun k => (idx k).toInt) (sd_siIdx1 j _)

/-- Both operand axes are inserted: the window coordinate is zero on each. -/
theorem sd_window (j : S4096x1024.Idx) (a : Fin S4096x9900.rank) : sd.window j a = 0 := by
  unfold ScatterDims.window
  rw [dif_neg (by revert a; decide)]

/-- Update `j` lands at `i` exactly when the two signed words of its index pair are `i`'s coordinates. -/
theorem sd_resultIdx?_iff (j : S4096x1024.Idx) (idx : IVec S4096x1024x2 32) (i : S4096x9900.Idx) :
    sd.resultIdx? j idx = some i ↔
      (idx (ix3 (j 0) (j 1) 0)).toInt = ((i 0).val : Int) ∧ (idx (ix3 (j 0) (j 1) 1)).toInt = ((i 1).val : Int) := by
  have hi0 := idx2_lt0 i
  have hi1 := idx2_lt1 i
  unfold ScatterDims.resultIdx?
  constructor
  · intro h
    split at h
    · next hb =>
      have e := Option.some.inj h
      have e0 : (sd.start j idx 0 + (sd.window j 0 : Int)).toNat = (i 0).val := congrArg (fun f => (f 0).val) e
      have e1 : (sd.start j idx 1 + (sd.window j 1 : Int)).toNat = (i 1).val := congrArg (fun f => (f 1).val) e
      have h0 := (hb 0).1
      have h1 := (hb 1).1
      rw [sd_window, sd_start0] at e0 h0
      rw [sd_window, sd_start1] at e1 h1
      constructor <;> omega
    · cases h
  · rintro ⟨h0, h1⟩
    have hb : ∀ a, 0 ≤ sd.start j idx a + (sd.window j a : Int) ∧ sd.start j idx a + (sd.window j a : Int) < S4096x9900.size a := by
      refine Fin.forall_fin_two.2 ⟨?_, ?_⟩
      · rw [sd_window, sd_start0, h0]; show _ ∧ _ < ((4096 : Nat) : Int); omega
      · rw [sd_window, sd_start1, h1]; show _ ∧ _ < ((9900 : Nat) : Int); omega
    rw [dif_pos hb]
    congr 1
    funext a
    revert a
    refine Fin.forall_fin_two.2 ⟨?_, ?_⟩
    · apply Fin.ext
      show (sd.start j idx 0 + (sd.window j 0 : Int)).toNat = (i 0).val
      rw [sd_window, sd_start0, h0]; omega
    · apply Fin.ext
      show (sd.start j idx 1 + (sd.window j 1 : Int)).toNat = (i 1).val
      rw [sd_window, sd_start1, h1]; omega

/-! ## The two index planes side by side -/

/-- The joined array at last coordinate 0 is the first plane. -/
theorem concat_read_fst {α : Type} (x₁ x₂ : S4096x1024x1.Idx → α) (a : Fin 4096) (b : Fin 1024) :
    concatenate S4096x1024x2 2 [⟨S4096x1024x1, x₁⟩, ⟨S4096x1024x1, x₂⟩]
      Facts₀.concatenates_S4096x1024x1_S4096x1024x1_S4096x1024x2_d2 (ix3 a b 0) = x₁ (ix3 a b 0) :=
  concatenate_pair_apply_left (t := S4096x1024x2) (s₁ := S4096x1024x1) (s₂ := S4096x1024x1) 2 x₁ x₂ _ (ix3 a b 0) rfl (ix3 a b 0) (fun c => by
    match c with
    | ⟨0, _⟩ => rfl
    | ⟨1, _⟩ => rfl
    | ⟨2, _⟩ => rfl)

/-- The joined array at last coordinate 1 is the second plane. -/
theorem concat_read_snd {α : Type} (x₁ x₂ : S4096x1024x1.Idx → α) (a : Fin 4096) (b : Fin 1024) :
    concatenate S4096x1024x2 2 [⟨S4096x1024x1, x₁⟩, ⟨S4096x1024x1, x₂⟩]
      Facts₀.concatenates_S4096x1024x1_S4096x1024x1_S4096x1024x2_d2 (ix3 a b 1) = x₂ (ix3 a b 0) :=
  concatenate_pair_apply_right (t := S4096x1024x2) (s₁ := S4096x1024x1) (s₂ := S4096x1024x1) 2 x₁ x₂ _ (ix3 a b 1) rfl rfl (ix3 a b 0) (fun c hc => by
    match c with
    | ⟨0, _⟩ => rfl
    | ⟨1, _⟩ => rfl
    | ⟨2, _⟩ => exact absurd rfl hc) rfl

/-! ## Words -/

/-- A signed word that is not negative passes the wrap-around of negative indices unchanged. -/
theorem select_slt_zero_of_nonneg (x y : BitVec 32) (hx : 0 ≤ x.toInt) :
    Scalar.select (IntOp.cmpi .slt x 0#32) y x = x := by
  have h : x.slt 0#32 = false := by
    show decide (x.toInt < (0#32).toInt) = false
    exact decide_eq_false (by show ¬ x.toInt < 0; omega)
  show (if BitVec.ofBool (x.slt 0#32) = 1 then y else x) = x
  rw [h]
  rfl

/-- A row number, as a 32-bit word read signed, is itself. -/
theorem toInt_ofNat_of_lt (n : Nat) (hn : n < 4096) : (BitVec.ofNat 32 n).toInt = (n : Int) := by
  rw [BitVec.toInt_eq_toNat_cond, BitVec.toNat_ofNat]
  have : n % 2 ^ 32 = n := Nat.mod_eq_of_lt (by omega)
  rw [this]
  split <;> omega

/-- A word clamped to `[0, 9899]`, read signed, lies in that interval. -/
theorem clamp_bounds (z : BitVec 32) :
    0 ≤ (IntOp.minsi 9899#32 (IntOp.maxsi 0#32 z)).toInt ∧ (IntOp.minsi 9899#32 (IntOp.maxsi 0#32 z)).toInt ≤ 9899 := by
  have h9 : (9899#32).toInt = 9899 := by decide
  have h0 : (0#32).toInt = 0 := by decide
  unfold IntOp.minsi IntOp.maxsi
  simp only [BitVec.slt, decide_eq_true_eq]
  split_ifs with h1 h2 h3 <;> (try rw [h9] at *) <;> (try rw [h0] at *) <;> omega

/-- A bin, read signed, is not negative. -/
theorem binOf_toInt_nonneg (x : Ideal .f32) : 0 ≤ (Cert.Hist.binOf x).toInt := (clamp_bounds _).1

/-- A bin, read signed, is its unsigned value. -/
theorem binOf_toInt_eq_toNat (x : Ideal .f32) : (Cert.Hist.binOf x).toInt = ((Cert.Hist.binOf x).toNat : Int) := by
  have h := binOf_toInt_nonneg x
  have hl := (Cert.Hist.binOf x).isLt
  rw [BitVec.toInt_eq_toNat_cond] at h ⊢
  split at h <;> split <;> omega

/-! ## The stages, read at an index -/

/-- The clamped bin plane is `binOf` of the positions. -/
theorem bin_plane (mz : FVec Ideal Cert.Hist.Rows .f32) (j : S4096x1024.Idx) :
    ReadP.val_main_v10 (F := Ideal) mz j = Cert.Hist.binOf (mz j) := by
  rw [ReadP.val_main_v10_apply, ReadP.val_main_call0_v4_apply, ReadP.val_main_call0_v3_apply, ReadP.val_main_c_3_apply,
    ReadP.val_main_call0_v2_apply, ReadP.val_main_call0_v1_apply, ReadP.val_main_call0_v0_apply, ReadP.val_main_c_apply,
    ReadP.val_main_v9_apply, ReadP.val_main_v8_apply, ReadP.val_main_v6_apply, ReadP.val_main_v5_apply, ReadP.val_main_cst_1_apply,
    ReadP.val_main_v7_apply, ReadP.val_main_cst_2_apply]
  rfl

/-- The row plane holds the row number. -/
theorem row_plane (j : S4096x1024.Idx) :
    ReadP.val_main_v16 (F := Ideal) j = BitVec.ofNat 32 (j 0).val := by
  rw [ReadP.val_main_v16_apply, ReadP.val_main_v15_apply, ReadP.val_main_v14_apply]

/-- The index pair of update `j`, first word read signed: the row number. -/
theorem row_read (mz : FVec Ideal Cert.Hist.Rows .f32) (j : S4096x1024.Idx) :
    (ReadP.val_main_v30 (F := Ideal) mz (ix3 (j 0) (j 1) 0)).toInt = ((j 0).val : Int) := by
  have hj : ReadP.idx_main_v28 (ix3 (j 0) (j 1) (0 : Fin 1)) = j := by
    funext a; match a with | ⟨0, _⟩ => rfl | ⟨1, _⟩ => rfl
  unfold ReadP.val_main_v30
  rw [concat_read_fst _ _ (j 0) (j 1), ReadP.val_main_v28_apply, hj, ReadP.val_main_v22_apply, ReadP.val_main_v19_apply, ReadP.val_main_v18_apply,
    ReadP.val_main_c_7_apply, row_plane,
    select_slt_zero_of_nonneg _ _ (by rw [toInt_ofNat_of_lt _ (idx2_lt0 j)]; omega), toInt_ofNat_of_lt _ (idx2_lt0 j)]

/-- The index pair of update `j`, second word read signed: the bin of the peak. -/
theorem bin_read (mz : FVec Ideal Cert.Hist.Rows .f32) (j : S4096x1024.Idx) :
    (ReadP.val_main_v30 (F := Ideal) mz (ix3 (j 0) (j 1) 1)).toInt = ((Cert.Hist.binOf (mz j)).toNat : Int) := by
  have hj : ReadP.idx_main_v29 (ix3 (j 0) (j 1) (0 : Fin 1)) = j := by
    funext a; match a with | ⟨0, _⟩ => rfl | ⟨1, _⟩ => rfl
  unfold ReadP.val_main_v30
  rw [concat_read_snd _ _ (j 0) (j 1), ReadP.val_main_v29_apply, hj, ReadP.val_main_v27_apply, ReadP.val_main_v24_apply, ReadP.val_main_v23_apply,
    ReadP.val_main_c_9_apply, bin_plane,
    select_slt_zero_of_nonneg _ _ (binOf_toInt_nonneg _), binOf_toInt_eq_toNat]

/-- The updates are the masked powers. -/
theorem upd_read (mz it : FVec Ideal Cert.Hist.Rows .f32) (j : S4096x1024.Idx) :
    ReadP.val_main_v13 (F := Ideal) mz it j = Cert.Hist.contribPow (mz j) (it j) := by
  rw [ReadP.val_main_v13_apply, ReadP.val_main_v4_apply, ReadP.val_main_v1_apply, ReadP.val_main_v0_apply, ReadP.val_main_cst_apply,
    ReadP.val_main_v3_apply, ReadP.val_main_v2_apply, ReadP.val_main_cst_0_apply, ReadP.val_main_v12_apply, ReadP.val_main_v11_apply,
    ReadP.val_main_cst_4_apply, ReadP.val_main_call1_v1_apply, ReadP.val_main_call1_v0_apply, ReadP.val_main_cst_5_apply]
  rfl

/-- The array scattered into is zero. -/
theorem zero_read (i : S4096x9900.Idx) : ReadP.val_main_v17 (F := Ideal) i = 0 := by
  rw [ReadP.val_main_v17_apply, ReadP.val_main_cst_6_apply]
  exact Ideal.ofBits_zero_f32

/-- Update `j` lands at `i` exactly when it is a peak of row `i 0` whose bin is `i 1`. -/
theorem lands_iff (mz : FVec Ideal Cert.Hist.Rows .f32) (j : S4096x1024.Idx) (i : S4096x9900.Idx) :
    sd.resultIdx? j (ReadP.val_main_v30 (F := Ideal) mz) = some i ↔
      (j 0).val = (i 0).val ∧ (Cert.Hist.binOf (mz j)).toNat = (i 1).val := by
  rw [sd_resultIdx?_iff, row_read, bin_read]
  constructor
  · rintro ⟨h0, h1⟩; exact ⟨by omega, by omega⟩
  · rintro ⟨h0, h1⟩; exact ⟨by omega, by omega⟩

/-- A double sum whose terms vanish off one row is that row's sum. -/
theorem sum_single_row {M : Type*} [AddCommMonoid M] (g : Fin 4096 → Fin 1024 → M) (a0 : Fin 4096)
    (h : ∀ a b, a ≠ a0 → g a b = 0) : ∑ a, ∑ b, g a b = ∑ b, g a0 b := by
  rw [Finset.sum_eq_single a0]
  · intro a _ ha
    exact Finset.sum_eq_zero (fun b _ => h a b ha)
  · intro h
    exact absurd (Finset.mem_univ _) h

/-- The reference's result stage is the binned spectrum of its two arguments, when every intensity is a nonnegative
    real. -/
theorem result_eq (mz it : FVec Ideal Cert.Hist.Rows .f32)
    (hit : ∀ i, ∃ r : ℝ, 0 ≤ r ∧ it i = ((r : EReal) : Ideal .f32)) :
    Cert.ReferenceIdeal.ReadP.val_main_v31 (F := Ideal) mz it = Cert.Hist.hist mz it := by
  funext i
  simp only [ReadP.val_main_v31, Host.scatterAdd, Ideal.hostScatterAdd_def, Ideal.hostScatterAdd]
  unfold Cert.Hist.hist
  rw [zero_read, zero_add, Finset.sum_filter, sum_idx2]
  refine (sum_single_row _ (i 0) ?_).trans ?_
  · intro a b ha
    rw [if_neg]
    intro h
    exact ha (Fin.ext ((lands_iff mz _ i).1 h).1)
  · apply Finset.sum_congr rfl
    intro p _
    obtain ⟨r, hr, e⟩ := hit (ix2 (i 0) p)
    refine if_congr ((lands_iff mz _ i).trans ⟨fun h => h.2, fun h => ⟨rfl, h⟩⟩) ?_ rfl
    rw [upd_read, e, Cert.Hist.contrib_eq_contribPow _ r hr]

end Cert.Hist.Ref
end
-- ==== Proof.PreDecode.lean ====
/-
  What the precondition gives: every intensity is a nonnegative real number.

  The printed precondition is the conjunction of three tests, each an `and`-reduction over the whole array of a
  compare: `|mz| < +∞`, `|intensities| < +∞`, `intensities ≥ 0`. The second says each intensity is not `±∞`, so it
  is a real; the third that this real is not negative.
-/
import proofs.«406923_j42545946034791_3_alg».proof.Pre_finite_inputs
import proofs.«406923_j42545946034791_3_alg».proof.Proof.HistSpec
import Idealize.ShloMosaic.Lib.ReduceAll
import Idealize.ShloMosaic.Lib.StableHlo.Predicate

noncomputable section

namespace Cert.Hist

open Idealize.ShloMosaic

/-- The single-precision word `0x7F800000` is `+∞`. -/
private theorem ofBits_inf : Ideal.ofBits .f32 0x7F800000#32 = (⊤ : EReal) := by
  simp [Ideal.ofBits, Ideal.ieee]

/-- An extended real whose absolute value `max a (-a)` is below `+∞` is a real number. -/
private theorem real_of_abs_lt_top (a : EReal) (h : max a (-a) < ⊤) : ∃ r : ℝ, a = (r : EReal) := by
  induction a using EReal.rec with
  | bot => simp at h
  | coe r => exact ⟨r, rfl⟩
  | top => simp at h

/-- A one-bit word made from a decision is 1 exactly when the decision holds. -/
private theorem ofBool_decide_eq_one {p : Prop} [Decidable p] (h : BitVec.ofBool (decide p) = 1#1) : p := by
  by_cases hp : p
  · exact hp
  · simp [hp] at h

/-- Under the precondition every intensity is a nonnegative real. -/
theorem intensities_nonneg [hP : Cert.Pre_finite_inputs.Facts] (mz it : FVec Ideal Rows .f32)
    (h : Cert.Pre_finite_inputs.fn (F := Ideal) mz it = fun _ => 1#1) :
    ∀ i, ∃ r : ℝ, 0 ≤ r ∧ it i = ((r : EReal) : Ideal .f32) := by
  intro i
  have h0 := congrFun h ValueIdx.ix0
  dsimp only [Cert.Pre_finite_inputs.fn] at h0
  -- the outer conjunction: (finite mz ∧ finite intensities) ∧ intensities ≥ 0
  obtain ⟨h12, h3⟩ := IntOp.andi_eq_one.1 h0
  obtain ⟨_, h2⟩ := IntOp.andi_eq_one.1 h12
  -- each reduction by `and` that came out 1 had a 1 at every element (the scalar result has one index)
  haveI : Subsingleton Cert.Pre_finite_inputs.S_.Idx := ⟨fun _ _ => funext fun d => d.elim0⟩
  have e2 := Host.reduce_andi_all _ _ _ _ _ h2 i
  have e3 := Host.reduce_andi_all _ _ _ _ _ h3 i
  -- at element `i`: |it i| < +∞, and it i ≥ 0
  have f2 : Ideal.cmp .olt (max (it i) (-(it i))) (Ideal.ofBits .f32 0x7F800000#32) = 1#1 := e2
  have f3 : Ideal.cmp .oge (it i) (Ideal.ofBits .f32 0x00000000#32) = 1#1 := e3
  rw [ofBits_inf] at f2
  rw [Ideal.ofBits_zero_f32] at f3
  have g2 : max (it i) (-(it i)) < (⊤ : EReal) := ofBool_decide_eq_one f2
  have g3 : (0 : EReal) ≤ it i := ofBool_decide_eq_one f3
  obtain ⟨r, hr⟩ := real_of_abs_lt_top (it i) g2
  refine ⟨r, ?_, hr⟩
  rw [hr] at g3
  exact_mod_cast g3

end Cert.Hist

end
-- ==== Proof.HistAlgebra.lean ====
/-
  The algebra that joins the two sides, over abstract data: a row's 1024 bins `w q` (32-bit words at most 9899) and
  contributions `v q` (real numbers).

  The kernel walks the row in 8 chunks of 128 peaks. Per chunk it forms, for each pair `(h, l)` of a high and a low
  part, the sum over the chunk's peaks of `[w ≫ 7 = h] · ([w & 127 = l] · v)`, and once more with `v − v` in place of
  `v` (the residual of the two-term split of `v`, which is zero at the ideal values). Since `w ≤ 9899 < 2¹⁴`, the
  pair `(w ≫ 7, w & 127)` is `(w / 128, w % 128)`, so the product of the two indicators is the indicator of
  `w = 128 h + l`; and the 8 chunks of 128 are the 1024 peaks. Hence the total is the sum of `v q` over the peaks whose
  bin is `128 h + l`.
-/
import proofs.«406923_j42545946034791_3_alg».proof.Proof.HistSpec

noncomputable section

namespace Cert.Hist

open Idealize.ShloMosaic

/-- The indicator the kernel forms of `x = n` for a lane number `n < 128`: the comparison's bit widened to a
    32-bit integer and converted to a float, `1` or `0`. -/
def hot (x : BitVec 32) (n : Fin 128) : Ideal .f32 :=
  FloatOps.sitofp .f32 ((IntOp.cmpi .eq x (BitVec.ofNat 32 n.val)).setWidth 32)

/-- Peak `p` of chunk `k` is peak `128 k + p` of the row. -/
def cat (k : Fin 8) (p : Fin 128) : Fin 1024 := ⟨128 * k.val + p.val, by have := k.isLt; have := p.isLt; omega⟩

/-- The indicator is one where the word is the lane number and zero elsewhere. -/
theorem hot_eq (x : BitVec 32) (n : Fin 128) : hot x n = if x.toNat = n.val then 1 else 0 := by
  -- the lane number is below 2³², so the word built from it has it as its value
  have hn : (BitVec.ofNat 32 n.val).toNat = n.val := by
    rw [BitVec.toNat_ofNat]; have := n.isLt; omega
  -- at the ideal values the conversion is the signed reading of the widened bit
  show (((((BitVec.ofBool (x == BitVec.ofNat 32 n.val)).setWidth 32).toInt : ℤ) : ℝ) : EReal) = _
  by_cases hx : x.toNat = n.val
  · have hxe : x = BitVec.ofNat 32 n.val := BitVec.eq_of_toNat_eq (by rw [hn]; exact hx)
    have hb : (x == BitVec.ofNat 32 n.val) = true := by rw [hxe]; simp
    have h1 : ((BitVec.ofBool true).setWidth 32).toInt = 1 := by decide
    rw [if_pos hx, hb, h1]; simp
  · have hb : (x == BitVec.ofNat 32 n.val) = false := by
      rw [beq_eq_false_iff_ne]; intro h; apply hx; rw [h, hn]
    have h0 : ((BitVec.ofBool false).setWidth 32).toInt = 0 := by decide
    rw [if_neg hx, hb, h0]; simp

/-- A bin is at most 9899 (the clamp's upper end). -/
theorem binOf_le (x : Ideal .f32) : (binOf x).toNat ≤ 9899 := by
  unfold binOf IntOp.minsi IntOp.maxsi
  generalize (FloatOps.fptosi 32 (FloatOps.divf (FloatOps.subf x (FloatOps.ofBits .f32 0x41200000#32)) (FloatOps.ofBits .f32 0x3DCCCCCD#32)) : BitVec 32) = y
  have h0 : (0#32).toInt = 0 := by decide
  have h1 : (9899#32).toInt = 9899 := by decide
  have h2 : (9899#32).toNat = 9899 := by decide
  have h3 : (0#32).toNat = 0 := by decide
  -- the signed reading of the cut quotient in terms of its unsigned one
  have hy := BitVec.toInt_eq_toNat_cond y
  have hyl := y.isLt
  simp only [BitVec.slt, h0, h1]
  -- either clamp end is taken, or the quotient itself lies between the two ends
  split_ifs with a b b
  all_goals (simp only [decide_eq_true_eq] at *)
  all_goals (first | omega | (split at hy <;> omega))

/-- For a word at most 9899, shifting right by 7 and masking with 127 split it as `128 h + l`. -/
theorem split_iff (w : BitVec 32) (hw : w.toNat ≤ 9899) (h l : Fin 128) :
    ((IntOp.shrsi .vector w 7#32).toNat = h.val ∧ (IntOp.andi w 127#32).toNat = l.val) ↔ w.toNat = 128 * h.val + l.val := by
  have h7 : (7#32).toNat = 7 := by decide
  have h127 : (127#32).toNat = 127 := by decide
  -- the word is below 2³¹: its sign bit is clear
  have hmsb : w.msb = false := by
    rw [BitVec.msb_eq_false_iff_two_mul_lt]; omega
  -- so the arithmetic shift is the quotient by 128
  have hs : (IntOp.shrsi .vector w 7#32).toNat = w.toNat / 128 := by
    unfold IntOp.shrsi
    rw [if_pos (by rw [h7]; omega), BitVec.toNat_sshiftRight'_of_msb_false hmsb, h7, Nat.shiftRight_eq_div_pow]
  -- and the mask with 127 = 2⁷ − 1 is the remainder
  have ha : (IntOp.andi w 127#32).toNat = w.toNat % 128 := by
    unfold IntOp.andi
    rw [BitVec.toNat_and, h127]
    exact Nat.and_two_pow_sub_one_eq_mod w.toNat 7
  rw [hs, ha]
  have := h.isLt; have := l.isLt
  omega

/-- The 8 chunks of 128 peaks are the row's 1024 peaks: `q ↦ (q / 128, q % 128)` undoes `cat`. -/
def catEquiv : Fin 8 × Fin 128 ≃ Fin 1024 where
  toFun x := cat x.1 x.2
  invFun q := (⟨q.val / 128, by have := q.isLt; omega⟩, ⟨q.val % 128, Nat.mod_lt _ (by norm_num)⟩)
  left_inv x := by
    rcases x with ⟨k, p⟩
    have := k.isLt; have := p.isLt
    refine Prod.ext (Fin.ext ?_) (Fin.ext ?_)
    · show (128 * k.val + p.val) / 128 = k.val; omega
    · show (128 * k.val + p.val) % 128 = p.val; omega
  right_inv q := by
    refine Fin.ext ?_
    show 128 * (q.val / 128) + q.val % 128 = q.val; omega

/-- A sum over the chunks and, in each, over its peaks is the sum over the row. -/
theorem sum_cat (f : Fin 1024 → Ideal .f32) : ∑ k : Fin 8, ∑ p : Fin 128, f (cat k p) = ∑ q : Fin 1024, f q := by
  rw [← Fintype.sum_prod_type' (fun k p => f (cat k p))]
  exact Fintype.sum_equiv catEquiv _ _ (fun _ => rfl)

/-- The kernel's total over the 8 chunks, both matrix products of each chunk, is the sum of the contributions of the
    peaks whose bin is `128 h + l`. -/
theorem hist_sum (w : Fin 1024 → BitVec 32) (hw : ∀ q, (w q).toNat ≤ 9899) (v : Fin 1024 → Ideal .f32)
    (hv : ∀ q, ∃ r : ℝ, v q = ((r : EReal) : Ideal .f32)) (h l : Fin 128) :
    (∑ k : Fin 8,
      ((∑ p : Fin 128, hot (IntOp.shrsi .vector (w (cat k p)) 7#32) h * (hot (IntOp.andi (w (cat k p)) 127#32) l * v (cat k p)))
        + ∑ p : Fin 128, hot (IntOp.shrsi .vector (w (cat k p)) 7#32) h * (hot (IntOp.andi (w (cat k p)) 127#32) l * (v (cat k p) - v (cat k p)))))
      = ∑ q : Fin 1024, if (w q).toNat = 128 * h.val + l.val then v q else 0 := by
  -- the product of the two indicators picks out the peaks whose bin is `128 h + l`
  have hA : ∀ q, hot (IntOp.shrsi .vector (w q) 7#32) h * (hot (IntOp.andi (w q) 127#32) l * v q)
      = if (w q).toNat = 128 * h.val + l.val then v q else 0 := by
    intro q
    rw [hot_eq, hot_eq]
    have hs := split_iff (w q) (hw q) h l
    by_cases c1 : (IntOp.shrsi .vector (w q) 7#32).toNat = h.val
    · by_cases c2 : (IntOp.andi (w q) 127#32).toNat = l.val
      · rw [if_pos c1, if_pos c2, if_pos (hs.mp ⟨c1, c2⟩), one_mul, one_mul]
      · rw [if_pos c1, if_neg c2, if_neg (fun e => c2 (hs.mpr e).2), zero_mul, mul_zero]
    · rw [if_neg c1, if_neg (fun e => c1 (hs.mpr e).1), zero_mul]
  -- the residual `v − v` of a real number is zero, so the second product adds nothing
  have hB : ∀ q, hot (IntOp.shrsi .vector (w q) 7#32) h * (hot (IntOp.andi (w q) 127#32) l * (v q - v q)) = 0 := by
    intro q
    obtain ⟨r, hr⟩ := hv q
    have hz : v q - v q = 0 := by
      rw [hr]
      show ((r : EReal) - (r : EReal)) = 0
      rw [← EReal.coe_sub, sub_self, EReal.coe_zero]
    rw [hz, mul_zero, mul_zero]
  simp only [hA, hB, Finset.sum_const_zero, add_zero]
  exact sum_cat (fun q => if (w q).toNat = 128 * h.val + l.val then v q else 0)

end Cert.Hist

end
-- ==== Proof.KTrip.lean ====
/-
  One trip of the kernel's loop over the peak chunks, and the loop as its iteration.

  The accumulator is a 64 × 128 × 128 scratch array. Trip `k` loads chunk `k` (128 peaks) of the row tile's
  positions (`a`) and intensities (`b`), adds to the accumulator the product of the high-part indicator with the
  low-part indicator scaled by the contribution, stores it, reads it back, and adds the same product taken with the
  residual of the contribution's two-term split. So a trip sends the accumulator `x` to `tripVal a b x`, whatever
  `x` is, and after `n` trips the accumulator is the `n`-fold iterate from its contents at loop entry.
-/
import proofs.«406923_j42545946034791_3_alg».proof.Proof.Gen.KernelIdeal.Loops
import Idealize.ShloMosaic.Lib.Pipeline.Value
import Idealize.ShloMosaic.Lib.Pipeline.FrameBody

set_option maxRecDepth 8192

noncomputable section

namespace Cert.KernelIdeal.HistK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rectangle of the whole accumulator. -/
abbrev rAll : Rect S64x128x128 := Rect.unit ![0, 0, 0] S64x128x128.size inb_S64x128x128_S64x128x128_0_0_0

theorem hz3 : (![0, 0, 0] : Fin S64x128x128.rank → ℕ) = fun _ => 0 := by
  funext a; fin_cases a <;> rfl

/-- Chunk `k` of an input block: its columns `[128 k, 128 k + 128)`. -/
def chunk (arg : Memref sig .tc .vmem S64x1024 .f32) (X : BufTy.Contents (Elt F) arg.view.ty) (k : Fin k0_t1_loop.trips) :
    Vec F S64x128 .f32 :=
  View.readAt (Elt F) arg.view (Rect.unit (s := S64x1024) (k0_off1 k) S64x128.size (k0_off1_inb k)).toLoadRect X

/-- What one trip makes of the accumulator `x`, given the chunk of positions `a` and of intensities `b`. -/
def tripVal (a b : Vec F S64x128 .f32) (x : Vec F S64x128x128 .f32) : Vec F S64x128x128 .f32 :=
  k0_pay10 (k0_pay4 a b) (k0_pay5 a) (k0_pay6 a) (k0_pay9 (k0_pay5 a) (k0_pay7 a b) x)

/-- The two stores of a trip, newest first: both over the whole accumulator; the older carries the first sum over
    the contents found, the newer the second sum over the older read back. -/
theorem tripL_eq (𝒱 : Variants) (c : Dev nD) (bd : Option 𝒱.V) (i : grid0.Coords) (arg1 : Memref sig .tc .vmem S64x1024 .f32) (harg1 : arg1.IsWhole) (arg2 : Memref sig .tc .vmem S64x1024 .f32) (harg2 : arg2.IsWhole) (arg3 : Memref sig .tc .vmem S64x9900 .f32) (harg3 : arg3.IsWhole) (arg4 : Memref sig .tc .vmem S64x128x128 .f32) (harg4 : arg4.IsWhole) (X_arg1 : BufTy.Contents (Elt F) arg1.view.ty) (X_arg2 : BufTy.Contents (Elt F) arg2.view.ty) (k : Fin k0_t1_loop.trips) (f_arg4 : BufTy.Contents (Elt F) arg4.view.ty) :
    tripL_k0_t1 (F := F) 𝒱 c bd i arg1 harg1 arg2 harg2 arg3 harg3 arg4 harg4 X_arg1 X_arg2 k f_arg4
      = [⟨rAll, k0_pay10 (k0_pay4 (chunk arg1 X_arg1 k) (chunk arg2 X_arg2 k)) (k0_pay5 (chunk arg1 X_arg1 k)) (k0_pay6 (chunk arg1 X_arg1 k))
            (arg4.view.readCov [⟨rAll, k0_pay9 (k0_pay5 (chunk arg1 X_arg1 k)) (k0_pay7 (chunk arg1 X_arg1 k) (chunk arg2 X_arg2 k))
                (View.readAt (Elt F) arg4.view rAll.toLoadRect f_arg4)⟩] rAll.toLoadRect)⟩,
         ⟨rAll, k0_pay9 (k0_pay5 (chunk arg1 X_arg1 k)) (k0_pay7 (chunk arg1 X_arg1 k) (chunk arg2 X_arg2 k))
            (View.readAt (Elt F) arg4.view rAll.toLoadRect f_arg4)⟩] := by
  unfold tripL_k0_t1 trip_k0_t1
  dsimp only
  sl_unfold_words
  rfl

/-- So a trip sends the accumulator's contents `x` to `tripVal a b x`. -/
theorem read_trip (𝒱 : Variants) (c : Dev nD) (bd : Option 𝒱.V) (i : grid0.Coords) (arg1 : Memref sig .tc .vmem S64x1024 .f32) (harg1 : arg1.IsWhole) (arg2 : Memref sig .tc .vmem S64x1024 .f32) (harg2 : arg2.IsWhole) (arg3 : Memref sig .tc .vmem S64x9900 .f32) (harg3 : arg3.IsWhole) (arg4 : Memref sig .tc .vmem S64x128x128 .f32) (harg4 : arg4.IsWhole) (X_arg1 : BufTy.Contents (Elt F) arg1.view.ty) (X_arg2 : BufTy.Contents (Elt F) arg2.view.ty) (k : Fin k0_t1_loop.trips) (f_arg4 : BufTy.Contents (Elt F) arg4.view.ty) :
    arg4.view.read (Elt F) (arg4.view.writes (Elt F) f_arg4 (tripL_k0_t1 (F := F) 𝒱 c bd i arg1 harg1 arg2 harg2 arg3 harg3 arg4 harg4 X_arg1 X_arg2 k f_arg4))
      = tripVal (chunk arg1 X_arg1 k) (chunk arg2 X_arg2 k) (arg4.view.read (Elt F) f_arg4) := by
  rw [tripL_eq]
  rw [View.read_writes_eq_canon _ _ _ (fun y => ⟨_, List.mem_cons_self, View.mem_set_unit_zero hz3 inb_S64x128x128_S64x128x128_0_0_0 y⟩)]
  rw [View.canon_cons_unit_zero (S := S64x128x128) hz3, View.readCov_unit_zero (S := S64x128x128) _ hz3]
  simp only [View.readAt_eq_ld, View.ld_unit_zero (S := S64x128x128) hz3]
  rfl

/-- The accumulator after `n` trips, from the contents `G` at loop entry. -/
def accAfter (arg1 : Memref sig .tc .vmem S64x1024 .f32) (arg2 : Memref sig .tc .vmem S64x1024 .f32) (arg4 : Memref sig .tc .vmem S64x128x128 .f32)
    (X_arg1 : BufTy.Contents (Elt F) arg1.view.ty) (X_arg2 : BufTy.Contents (Elt F) arg2.view.ty) (G : BufTy.Contents (Elt F) arg4.view.ty) :
    ℕ → Vec F S64x128x128 .f32
  | 0 => arg4.view.read (Elt F) G
  | n + 1 => if h : n < k0_t1_loop.trips then
      tripVal (chunk arg1 X_arg1 ⟨n, h⟩) (chunk arg2 X_arg2 ⟨n, h⟩) (accAfter arg1 arg2 arg4 X_arg1 X_arg2 G n)
    else accAfter arg1 arg2 arg4 X_arg1 X_arg2 G n

/-- The pieces of the trips before `n`, written over the contents at loop entry, read as the `n`-fold iterate. -/
theorem read_pb (𝒱 : Variants) (c : Dev nD) (bd : Option 𝒱.V) (i : grid0.Coords) (arg1 : Memref sig .tc .vmem S64x1024 .f32) (harg1 : arg1.IsWhole) (arg2 : Memref sig .tc .vmem S64x1024 .f32) (harg2 : arg2.IsWhole) (arg3 : Memref sig .tc .vmem S64x9900 .f32) (harg3 : arg3.IsWhole) (arg4 : Memref sig .tc .vmem S64x128x128 .f32) (harg4 : arg4.IsWhole) (X_arg1 : BufTy.Contents (Elt F) arg1.view.ty) (X_arg2 : BufTy.Contents (Elt F) arg2.view.ty) (G : BufTy.Contents (Elt F) arg4.view.ty) (n : ℕ) :
    arg4.view.read (Elt F) (arg4.view.writes (Elt F) G (pb_k0_t1 (F := F) 𝒱 c bd i arg1 harg1 arg2 harg2 arg3 harg3 arg4 harg4 X_arg1 X_arg2 G n))
      = accAfter arg1 arg2 arg4 X_arg1 X_arg2 G n := by
  induction n with
  | zero => rfl
  | succ n ih =>
    rw [pb_k0_t1.eq_2]
    unfold pb_k0_t1Step
    by_cases h : n < k0_t1_loop.trips
    · rw [dif_pos h, View.writes_append, read_trip, ih]
      simp only [accAfter, dif_pos h]
    · rw [dif_neg h, ih]
      simp only [accAfter, dif_neg h]

end Cert.KernelIdeal.HistK

end
-- ==== Proof.KRun.lean ====
/-
  What the kernel's body leaves in the output block, as one function of the accumulator after the loop.

  After the loop the body copies the accumulator out plane by plane: for each high part `h < 77` the 64 × 128 plane
  `acc[:, h, :]` goes to columns `[128 h, 128 h + 128)` of the 64 × 9900 block, and the first 44 lanes of plane 77 go to
  columns `[9856, 9900)`. So column `j` of the block holds `acc[:, j / 128, j % 128]` (`blockFn`), and the accumulator is the
  8-fold iterate of the trip from the zero fill (`read_afterLoop`).
-/
import proofs.«406923_j42545946034791_3_alg».proof.Proof.KernelIdealFrame
import proofs.«406923_j42545946034791_3_alg».proof.Proof.KTrip
import Idealize.ShloMosaic.Lib.ValueIdx

set_option maxRecDepth 16384

noncomputable section

namespace Cert.KernelIdeal.HistK

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Column `j` of the output block is the accumulator's entry at high part `j / 128` and low part `j % 128`. -/
def blockFn (acc : Vec F S64x128x128 .f32) : Vec F S64x9900 .f32 :=
  fun y => acc (ix3 (y 0) ⟨(y 1).val / 128, by have : (y 1).val < 9900 := (y 1).isLt; show _ < 128; omega⟩
    ⟨(y 1).val % 128, Nat.mod_lt _ (by decide)⟩)

/-- Plane `hh` of the accumulator, cast to 64 × 128 and stored at columns `[128 hh, 128 hh + 128)`, is that block of
    `blockFn`. -/
theorem colpiece (arg4 : Memref sig .tc .vmem S64x128x128 .f32) (g : BufTy.Contents (Elt F) arg4.view.ty) (hh : ℕ) (hlt : hh < 77)
    (inbS : ∀ a, (![0, 128 * hh] : Fin S64x9900.rank → ℕ) a + (![64, 128] : Fin S64x9900.rank → ℕ) a ≤ S64x9900.size a)
    (inbL : ∀ a, (![0, hh, 0] : Fin S64x128x128.rank → ℕ) a + S64x1x128.size a ≤ S64x128x128.size a)
    (x : (Rect.unit (s := S64x9900) ![0, 128 * hh] ![64, 128] inbS).shape.Idx) :
    shapeCast S64x128 (View.readAt (Elt F) arg4.view (Rect.unit (s := S64x128x128) ![0, hh, 0] S64x1x128.size inbL).toLoadRect g) shapeCasts_S64x1x128_S64x128 x
      = blockFn (arg4.view.read (Elt F) g) ((Rect.unit (s := S64x9900) ![0, 128 * hh] ![64, 128] inbS).emb x) := by
  have hx0 : (x 0).val < 64 := (x 0).isLt
  have hx1 : (x 1).val < 128 := (x 1).isLt
  rw [shapeCast_apply _ shapeCasts_S64x1x128_S64x128 x (ix3 ⟨(x 0).val, hx0⟩ ⟨0, by decide⟩ ⟨(x 1).val, hx1⟩)
    (by rw [Shape.rowMajor_val_three, Shape.rowMajor_val_two]; simp)]
  unfold blockFn
  show arg4.view.read (Elt F) g _ = arg4.view.read (Elt F) g _
  refine congrArg _ (funext fun a => Fin.ext ?_)
  fin_cases a
  · simp
  · show hh + 1 * 0 = (128 * hh + 1 * (x 1).val) / 128
    omega
  · show 0 + 1 * (x 1).val = (128 * hh + 1 * (x 1).val) % 128
    omega

/-- The first 44 lanes of plane 77, stored at columns `[9856, 9900)`, likewise. -/
theorem lastpiece (arg4 : Memref sig .tc .vmem S64x128x128 .f32) (g : BufTy.Contents (Elt F) arg4.view.ty)
    (inbS : ∀ a, (![0, 9856] : Fin S64x9900.rank → ℕ) a + (![64, 44] : Fin S64x9900.rank → ℕ) a ≤ S64x9900.size a)
    (inbL : ∀ a, (![0, 77, 0] : Fin S64x128x128.rank → ℕ) a + (![64, 1, 44] : Fin S64x128x128.rank → ℕ) a ≤ S64x128x128.size a)
    (x : (Rect.unit (s := S64x9900) ![0, 9856] ![64, 44] inbS).shape.Idx) :
    shapeCast S64x44 (View.readAt (Elt F) arg4.view (Rect.unit (s := S64x128x128) ![0, 77, 0] ![64, 1, 44] inbL).toLoadRect g) shapeCasts_S64x1x44_S64x44 x
      = blockFn (arg4.view.read (Elt F) g) ((Rect.unit (s := S64x9900) ![0, 9856] ![64, 44] inbS).emb x) := by
  have hx0 : (x 0).val < 64 := (x 0).isLt
  have hx1 : (x 1).val < 44 := (x 1).isLt
  rw [shapeCast_apply _ shapeCasts_S64x1x44_S64x44 x (ix3 ⟨(x 0).val, hx0⟩ ⟨0, by decide⟩ ⟨(x 1).val, hx1⟩)
    (by rw [Shape.rowMajor_val_three, Shape.rowMajor_val_two]; simp)]
  unfold blockFn
  show arg4.view.read (Elt F) g _ = arg4.view.read (Elt F) g _
  refine congrArg _ (funext fun a => Fin.ext ?_)
  fin_cases a
  · simp
  · show 77 + 1 * 0 = (9856 + 1 * (x 1).val) / 128
    omega
  · show 0 + 1 * (x 1).val = (9856 + 1 * (x 1).val) % 128
    omega

/-- The accumulator's contents right after the zero fill. -/
abbrev zeroFill (arg4 : Memref sig .tc .vmem S64x128x128 .f32) : BufTy.Contents (Elt F) arg4.view.ty :=
  arg4.view.writes (Elt F) arg4.view.junk [⟨rAll, k0_pay8⟩]

/-- The accumulator's contents after the loop, as the run holds them: the trips' pieces over the zero fill. -/
abbrev afterLoop (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x9900 .f32) (harg3 : arg3.IsWhole) (arg4 : Memref sig .tc .vmem S64x128x128 .f32) (harg4 : arg4.IsWhole) (x0 : Vec F S64x1024 .f32) (x1 : Vec F S64x1024 .f32) : BufTy.Contents (Elt F) arg4.view.ty :=
  arg4.view.writes (Elt F) arg4.view.junk
    (pb_k0_t1 (F := F) Variants.none c none i arg1 harg1 arg2 harg2 arg3 harg3 arg4 harg4 (harg1.unread x0) (harg2.unread x1)
        (zeroFill arg4) (Scf.trips k0_t1_loop.lb k0_t1_loop.ub k0_t1_loop.st)
      ++ [⟨rAll, k0_pay8⟩])

/-- They read as the iterate of the trip, all trips done, from the zero fill. -/
theorem read_afterLoop (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x9900 .f32) (harg3 : arg3.IsWhole) (arg4 : Memref sig .tc .vmem S64x128x128 .f32) (harg4 : arg4.IsWhole) (x0 : Vec F S64x1024 .f32) (x1 : Vec F S64x1024 .f32) :
    arg4.view.read (Elt F) (afterLoop c i arg1 harg1 arg2 harg2 arg3 harg3 arg4 harg4 x0 x1)
      = accAfter arg1 arg2 arg4 (harg1.unread x0) (harg2.unread x1) (zeroFill arg4) k0_t1_loop.trips := by
  unfold afterLoop
  rw [View.writes_append]
  exact read_pb Variants.none c none i arg1 harg1 arg2 harg2 arg3 harg3 arg4 harg4 (harg1.unread x0) (harg2.unread x1) (zeroFill arg4) _

/-- Every piece the body's run leaves in the output block is a block of `blockFn` of the accumulator after the loop. -/
theorem run_pieces (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x9900 .f32) (harg3 : arg3.IsWhole) (arg4 : Memref sig .tc .vmem S64x128x128 .f32) (harg4 : arg4.IsWhole) (x0 : Vec F S64x1024 .f32) (x1 : Vec F S64x1024 .f32) :
    ∀ p ∈ (kernelRun0_A c i arg1 harg1 arg2 harg2 arg3 harg3 arg4 harg4 x0 x1).1, ∀ x : p.1.shape.Idx,
      p.2 x = blockFn (arg4.view.read (Elt F) (afterLoop c i arg1 harg1 arg2 harg2 arg3 harg3 arg4 harg4 x0 x1)) (p.1.emb x) := by
  unfold kernelRun0_A
  dsimp only
  sl_unfold_words
  simp only [List.forall_mem_cons, List.not_mem_nil, false_imp_iff, implies_true, and_true]
  refine ⟨fun x => lastpiece arg4 _ _ _ x, ?_⟩
  repeat' constructor
  all_goals (intro x; exact colpiece arg4 _ _ (by decide) _ _ x)

/-- So the body leaves in the output block `blockFn` of the iterated accumulator. -/
theorem out_block (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x9900 .f32) (harg3 : arg3.IsWhole) (arg4 : Memref sig .tc .vmem S64x128x128 .f32) (harg4 : arg4.IsWhole) (x0 : Vec F S64x1024 .f32) (x1 : Vec F S64x1024 .f32) :
    out0_A_2 c i arg1 harg1 arg2 harg2 arg3 harg3 arg4 harg4 x0 x1
      = blockFn (accAfter arg1 arg2 arg4 (harg1.unread x0) (harg2.unread x1) (zeroFill arg4) k0_t1_loop.trips) := by
  unfold out0_A_2
  rw [View.read_writes_eq_canon _ _ _ (cover0_A_2 c i arg1 harg1 arg2 harg2 arg3 harg3 arg4 harg4 x0 x1)]
  funext y
  rw [View.canon_apply_of_pieces (blockFn (arg4.view.read (Elt F) (afterLoop c i arg1 harg1 arg2 harg2 arg3 harg3 arg4 harg4 x0 x1))) _ (run_pieces c i arg1 harg1 arg2 harg2 arg3 harg3 arg4 harg4 x0 x1) y
    (cover0_A_2 c i arg1 harg1 arg2 harg2 arg3 harg3 arg4 harg4 x0 x1 y), read_afterLoop]

end Cert.KernelIdeal.HistK

end
-- ==== Proof.KPayload.lean ====
/-
  One trip's effect on the accumulator, read at an index, at the ideal values.

  At row `r`, high part `h` and low part `l`: the accumulator's entry, plus the sum over the chunk's 128 peaks `p` of
  `[bin ≫ 7 = h] · ([bin & 127 = l] · contribution)`, plus the same sum with the contribution replaced by the
  contribution minus itself (what the residual of the two-term split is when the narrowing conversion is the
  identity). Here `bin` is the bin of the peak's position and the contribution is the masked square root of its
  intensity; the indicators are the comparisons with the lane number along the last axis, widened and converted; each
  matrix product contracts the peak axis with the row as a batch axis.
-/
import proofs.«406923_j42545946034791_3_alg».proof.Proof.KTrip
import proofs.«406923_j42545946034791_3_alg».proof.Proof.HistAlgebra
import Idealize.ShloMosaic.Lib.ValueLayout

noncomputable section

namespace Cert.KernelIdeal.HistK

open Cert.KernelIdeal Cert.KernelIdeal.Gen Idealize.ShloMosaic Idealize.ShloMosaic.ValueIdx

/-- The bin of each peak of the chunk. -/
theorem pay2_apply (a : Vec Ideal S64x128 .f32) (r : Fin 64) (p : Fin 128) :
    k0_pay2 (F := Ideal) a (ix2 r p) = Cert.Hist.binOf (a (ix2 r p)) := rfl

/-- The masked square root of each peak of the chunk. -/
theorem pay3_apply (a b : Vec Ideal S64x128 .f32) (r : Fin 64) (p : Fin 128) :
    k0_pay3 (F := Ideal) a b (ix2 r p) = Cert.Hist.contrib (a (ix2 r p)) (b (ix2 r p)) := rfl

/-- A 64 × 128 array given a trailing unit axis and broadcast along it reads, at `(r, p, l)`, its entry `(r, p)`. -/
theorem keepLast_apply {α : Type} (v : S64x128.Idx → α) (r : Fin 64) (p l : Fin 128) :
    broadcastTo S64x128x128 (shapeCast S64x128x1 v shapeCasts_S64x128_S64x128x1) broadcasts_S64x128x1_S64x128x128 (ix3 r p l)
      = v (ix2 r p) := by
  refine (broadcastTo_apply _ _ (ix3 r p l) (ix3 r p (0 : Fin 1)) ?_).trans ?_
  · intro a
    match a with
    | ⟨0, _⟩ => rfl
    | ⟨1, _⟩ => rfl
    | ⟨2, _⟩ => rfl
  · refine shapeCast_apply v _ _ (ix2 r p) ?_
    rw [Shape.rowMajor_val_two, Shape.rowMajor_val_three]
    show r.val * 128 + p.val = (r.val * 128 + p.val) * 1 + 0
    omega

/-- The lane number along the last axis. -/
theorem laneIota_apply (r : Fin 64) (p l : Fin 128) :
    iota .tc S64x128x128 32 [2] iota_S64x128x128_d2_w32 (ix3 r p l) = BitVec.ofNat 32 l.val :=
  iota_single_apply .tc S64x128x128 32 2 iota_S64x128x128_d2_w32 (ix3 r p l)

/-- The high-part indicator. -/
theorem pay5_apply (a : Vec Ideal S64x128 .f32) (r : Fin 64) (p h : Fin 128) :
    k0_pay5 (F := Ideal) a (ix3 r p h)
      = Cert.Hist.hot (IntOp.shrsi .vector (Cert.Hist.binOf (a (ix2 r p))) 7#32) h :=
  congrArg₂ (fun u v => (FloatOps.sitofp .f32 ((IntOp.cmpi .eq u v).setWidth 32) : Ideal .f32))
    (keepLast_apply (shrsi (k0_pay2 (F := Ideal) a) (broadcast S64x128 7#32)) r p h) (laneIota_apply r p h)

/-- The low-part indicator. -/
theorem pay6_apply (a : Vec Ideal S64x128 .f32) (r : Fin 64) (p l : Fin 128) :
    k0_pay6 (F := Ideal) a (ix3 r p l)
      = Cert.Hist.hot (IntOp.andi (Cert.Hist.binOf (a (ix2 r p))) 127#32) l :=
  congrArg₂ (fun u v => (FloatOps.sitofp .f32 ((IntOp.cmpi .eq u v).setWidth 32) : Ideal .f32))
    (keepLast_apply (andi (k0_pay2 (F := Ideal) a) (broadcast S64x128 127#32)) r p l) (laneIota_apply r p l)

/-- The low-part indicator scaled by the contribution. -/
theorem pay7_apply (a b : Vec Ideal S64x128 .f32) (r : Fin 64) (p l : Fin 128) :
    k0_pay7 (F := Ideal) a b (ix3 r p l)
      = Cert.Hist.hot (IntOp.andi (Cert.Hist.binOf (a (ix2 r p))) 127#32) l * Cert.Hist.contrib (a (ix2 r p)) (b (ix2 r p)) :=
  congrArg₂ (fun (u v : EReal) => u * v) (pay6_apply a r p l)
    (keepLast_apply (truncf .bf16 (k0_pay3 (F := Ideal) a b) bitsLt_bf16_f32) r p l)

/-- The residual of the contribution's two-term split. -/
theorem pay4_apply (a b : Vec Ideal S64x128 .f32) (r : Fin 64) (p : Fin 128) :
    k0_pay4 (F := Ideal) a b (ix2 r p)
      = Cert.Hist.contrib (a (ix2 r p)) (b (ix2 r p)) - Cert.Hist.contrib (a (ix2 r p)) (b (ix2 r p)) := rfl

/-! The matrix product's operand indices, axis by axis: the row is a batch axis of both operands, the peak axis is
contracted, and the last axis of each operand is free. -/

theorem dot_lhs0 (j : S64x128x128.Idx) (k : dot_S64x128x128_S64x128x128_S64x128x128_1_1_2_2_0_0.contr.Idx) :
    (dot_S64x128x128_S64x128x128_S64x128x128_1_1_2_2_0_0.lhsIdx j k 0).val = (j 0).val := by
  simp [DotDims.lhsIdx, dot_S64x128x128_S64x128x128_S64x128x128_1_1_2_2_0_0]; rfl

theorem dot_lhs1 (j : S64x128x128.Idx) (k : dot_S64x128x128_S64x128x128_S64x128x128_1_1_2_2_0_0.contr.Idx) :
    (dot_S64x128x128_S64x128x128_S64x128x128_1_1_2_2_0_0.lhsIdx j k 1).val = (k ⟨0, by decide⟩).val :=
  DotDims.lhsIdx_val_of_single dot_S64x128x128_S64x128x128_S64x128x128_1_1_2_2_0_0 (cl := 1) rfl j k

theorem dot_lhs2 (j : S64x128x128.Idx) (k : dot_S64x128x128_S64x128x128_S64x128x128_1_1_2_2_0_0.contr.Idx) :
    (dot_S64x128x128_S64x128x128_S64x128x128_1_1_2_2_0_0.lhsIdx j k 2).val = (j 1).val := by
  simp [DotDims.lhsIdx, dot_S64x128x128_S64x128x128_S64x128x128_1_1_2_2_0_0]; rfl

theorem dot_rhs0 (j : S64x128x128.Idx) (k : dot_S64x128x128_S64x128x128_S64x128x128_1_1_2_2_0_0.contr.Idx) :
    (dot_S64x128x128_S64x128x128_S64x128x128_1_1_2_2_0_0.rhsIdx j k 0).val = (j 0).val := by
  simp [DotDims.rhsIdx, dot_S64x128x128_S64x128x128_S64x128x128_1_1_2_2_0_0]; rfl

theorem dot_rhs1 (j : S64x128x128.Idx) (k : dot_S64x128x128_S64x128x128_S64x128x128_1_1_2_2_0_0.contr.Idx) :
    (dot_S64x128x128_S64x128x128_S64x128x128_1_1_2_2_0_0.rhsIdx j k 1).val = (k ⟨0, by decide⟩).val :=
  DotDims.rhsIdx_val_of_single dot_S64x128x128_S64x128x128_S64x128x128_1_1_2_2_0_0 (cr := 1) rfl j k

theorem dot_rhs2 (j : S64x128x128.Idx) (k : dot_S64x128x128_S64x128x128_S64x128x128_1_1_2_2_0_0.contr.Idx) :
    (dot_S64x128x128_S64x128x128_S64x128x128_1_1_2_2_0_0.rhsIdx j k 2).val = (j 2).val := by
  simp [DotDims.rhsIdx, dot_S64x128x128_S64x128x128_S64x128x128_1_1_2_2_0_0]; rfl

/-- The contraction's indices are the chunk's 128 peaks. -/
def peakEquiv : dot_S64x128x128_S64x128x128_S64x128x128_1_1_2_2_0_0.contr.Idx ≃ Fin 128 :=
  contrEquiv1 dot_S64x128x128_S64x128x128_S64x128x128_1_1_2_2_0_0 128 rfl rfl

theorem peakEquiv_symm_val (p : Fin 128) : ((peakEquiv.symm p) ⟨0, by decide⟩ : ℕ) = p.val :=
  contrEquiv1_symm_val dot_S64x128x128_S64x128x128_S64x128x128_1_1_2_2_0_0 128 rfl rfl p

/-- At the result's entry `(r, h, l)` and peak `p` the left operand is read at `(r, p, h)` … -/
theorem dot_lhsIdx_eq (r : Fin 64) (h l p : Fin 128) :
    dot_S64x128x128_S64x128x128_S64x128x128_1_1_2_2_0_0.lhsIdx (ix3 r h l) (peakEquiv.symm p) = ix3 r p h := by
  funext a
  refine Fin.ext ?_
  match a with
  | ⟨0, _⟩ => exact dot_lhs0 _ _
  | ⟨1, _⟩ => exact (dot_lhs1 _ _).trans (peakEquiv_symm_val p)
  | ⟨2, _⟩ => exact dot_lhs2 _ _

/-- … and the right operand at `(r, p, l)`. -/
theorem dot_rhsIdx_eq (r : Fin 64) (h l p : Fin 128) :
    dot_S64x128x128_S64x128x128_S64x128x128_1_1_2_2_0_0.rhsIdx (ix3 r h l) (peakEquiv.symm p) = ix3 r p l := by
  funext a
  refine Fin.ext ?_
  match a with
  | ⟨0, _⟩ => exact dot_rhs0 _ _
  | ⟨1, _⟩ => exact (dot_rhs1 _ _).trans (peakEquiv_symm_val p)
  | ⟨2, _⟩ => exact dot_rhs2 _ _

/-- The matrix product into the zero accumulator, read at `(r, h, l)`: the sum over the peaks of the products. -/
theorem dotZero_apply (L R : FVec Ideal S64x128x128 .bf16) (r : Fin 64) (h l : Fin 128) :
    matmul (F := Ideal) dot_S64x128x128_S64x128x128_S64x128x128_1_1_2_2_0_0 none L R
        (constant (F := Ideal) S64x128x128 .f32 0x00000000#32) (ix3 r h l)
      = ∑ p : Fin 128, L (ix3 r p h) * R (ix3 r p l) := by
  refine (Ideal.matmul_constant_zero_apply _ none L R (ix3 r h l)).trans ?_
  rw [← Equiv.sum_comp peakEquiv.symm]
  refine Finset.sum_congr rfl fun p _ => ?_
  rw [dot_lhsIdx_eq, dot_rhsIdx_eq]

/-- The first store's payload: the accumulator plus the product of the two operands. -/
theorem pay9_apply (L R : FVec Ideal S64x128x128 .bf16) (x : Vec Ideal S64x128x128 .f32) (r : Fin 64) (h l : Fin 128) :
    k0_pay9 (F := Ideal) L R x (ix3 r h l) = x (ix3 r h l) + ∑ p : Fin 128, L (ix3 r p h) * R (ix3 r p l) := by
  show shapeCast S64x128x128 (addf x (matmul (F := Ideal) dot_S64x128x128_S64x128x128_S64x128x128_1_1_2_2_0_0 none L R
      (constant (F := Ideal) S64x128x128 .f32 0x00000000#32))) shapeCasts_S64x128x128_S64x128x128 (ix3 r h l) = _
  rw [shapeCast_self]
  exact congrArg (fun t : EReal => x (ix3 r h l) + t) (dotZero_apply L R r h l)

/-- The second store's payload: the accumulator plus the product of the left operand with the right operand scaled,
    along the last axis, by the 64 × 128 array `c`. -/
theorem pay10_apply (c : FVec Ideal S64x128 .bf16) (L R : FVec Ideal S64x128x128 .bf16) (y : Vec Ideal S64x128x128 .f32)
    (r : Fin 64) (h l : Fin 128) :
    k0_pay10 (F := Ideal) c L R y (ix3 r h l)
      = y (ix3 r h l) + ∑ p : Fin 128, L (ix3 r p h) * (R (ix3 r p l) * c (ix2 r p)) := by
  show shapeCast S64x128x128 (addf y (matmul (F := Ideal) dot_S64x128x128_S64x128x128_S64x128x128_1_1_2_2_0_0 none L
      (mulf R (broadcastTo S64x128x128 (shapeCast S64x128x1 c shapeCasts_S64x128_S64x128x1) broadcasts_S64x128x1_S64x128x128))
      (constant (F := Ideal) S64x128x128 .f32 0x00000000#32))) shapeCasts_S64x128x128_S64x128x128 (ix3 r h l) = _
  rw [shapeCast_self]
  refine (congrArg (fun t : EReal => y (ix3 r h l) + t) (dotZero_apply L _ r h l)).trans ?_
  refine congrArg (fun t : EReal => y (ix3 r h l) + t) (Finset.sum_congr rfl fun p _ => ?_)
  exact congrArg (fun t : EReal => L (ix3 r p h) * t)
    (congrArg (fun t : EReal => R (ix3 r p l) * t) (keepLast_apply c r p l))

/-- One trip at the ideal values, entry by entry. -/
theorem tripVal_apply (a b : Vec Ideal S64x128 .f32) (x : Vec Ideal S64x128x128 .f32) (r : Fin 64) (h l : Fin 128) :
    tripVal (F := Ideal) a b x (ix3 r h l)
      = (x (ix3 r h l)
          + ∑ p : Fin 128, Cert.Hist.hot (IntOp.shrsi .vector (Cert.Hist.binOf (a (ix2 r p))) 7#32) h
              * (Cert.Hist.hot (IntOp.andi (Cert.Hist.binOf (a (ix2 r p))) 127#32) l * Cert.Hist.contrib (a (ix2 r p)) (b (ix2 r p))))
        + ∑ p : Fin 128, Cert.Hist.hot (IntOp.shrsi .vector (Cert.Hist.binOf (a (ix2 r p))) 7#32) h
              * (Cert.Hist.hot (IntOp.andi (Cert.Hist.binOf (a (ix2 r p))) 127#32) l
                  * (Cert.Hist.contrib (a (ix2 r p)) (b (ix2 r p)) - Cert.Hist.contrib (a (ix2 r p)) (b (ix2 r p)))) := by
  unfold tripVal
  refine (pay10_apply _ _ _ _ r h l).trans ?_
  refine congrArg₂ (fun u v : EReal => u + v) ?_ ?_
  · refine (pay9_apply _ _ x r h l).trans ?_
    refine congrArg (fun t : EReal => x (ix3 r h l) + t) (Finset.sum_congr rfl fun p _ => ?_)
    rw [pay5_apply, pay7_apply]
  · refine Finset.sum_congr rfl fun p _ => ?_
    rw [pay5_apply, pay6_apply, pay4_apply]

end Cert.KernelIdeal.HistK
end
-- ==== Proof.KBlock.lean ====
/-
  The body's output block is the binned spectrum of its row tile.

  For a tile of 64 rows with positions `x0` and intensities `x1` (each 64 × 1024), row `r` and column `j` of the block hold
  the sum over the row's 1024 peaks whose bin is `j` of their contributions (`tileHist`). This joins three facts: the
  block is `blockFn` of the accumulator after the loop; the accumulator is the 8-fold iterate of the trip from zero,
  each trip adding two sums of indicator products over its chunk (chunk `k` holds the tile's columns
  `[128 k, 128 k + 128)`); and those sixteen sums are the one sum over the row's peaks with bin `128 h + l`, the
  intensities being nonnegative reals, so that `j = 128 (j / 128) + j % 128` closes it.
-/
import proofs.«406923_j42545946034791_3_alg».proof.Proof.KernelIdealFrame
import proofs.«406923_j42545946034791_3_alg».proof.Proof.HistSpec
import proofs.«406923_j42545946034791_3_alg».proof.Proof.HistAlgebra
import proofs.«406923_j42545946034791_3_alg».proof.Proof.KRun
import proofs.«406923_j42545946034791_3_alg».proof.Proof.KPayload
import Idealize.ShloMosaic.Lib.ValueLayout

set_option maxRecDepth 8192

noncomputable section

namespace Cert.KernelIdeal.HistK

open Cert.KernelIdeal Cert.KernelIdeal.Gen Cert.KernelIdeal.GenP Idealize.ShloMosaic Idealize.ShloMosaic.ValueIdx

/-- The binned spectrum of one tile of 64 rows. -/
def tileHist (x0 x1 : Vec Ideal S64x1024 .f32) : Vec Ideal S64x9900 .f32 :=
  fun y => ∑ q : Fin 1024,
    if (Cert.Hist.binOf (x0 (ix2 (y 0) q))).toNat = (y 1).val then Cert.Hist.contrib (x0 (ix2 (y 0) q)) (x1 (ix2 (y 0) q)) else 0

/-- The loop makes exactly 8 trips. -/
theorem trips_eq : k0_t1_loop.trips = 8 := by decide

/-- Chunk `k` of an input block held whole: its entry `(r, p)` is the block's entry `(r, 128 k + p)`. -/
theorem chunk_apply {F : FTy → Type} [FloatOps F] (arg : Memref sig .tc .vmem S64x1024 .f32) (harg : arg.IsWhole)
    (x : Vec F S64x1024 .f32) (k : Fin k0_t1_loop.trips) (r : Fin 64) (p : Fin 128) (hk : k.val < 8) :
    chunk arg (harg.unread x) k (ix2 r p) = x (ix2 r (Cert.Hist.cat ⟨k.val, hk⟩ p)) := by
  unfold chunk
  rw [View.readAt_eq_ld, harg.read_unread]
  show x ((Rect.unit (s := S64x1024) (k0_off1 k) S64x128.size (k0_off1_inb k)).emb (ix2 r p)) = _
  refine congrArg x (funext fun a => Fin.ext ?_)
  rw [Rect.emb_apply]
  simp only [Rect.off_unit, Rect.stride_unit, k0_off1_eq]
  fin_cases a <;> simp [Cert.Hist.cat]

/-- Right after the zero fill the accumulator reads as the fill. -/
theorem read_zeroFill {F : FTy → Type} [FloatOps F] (arg4 : Memref sig .tc .vmem S64x128x128 .f32) :
    arg4.view.read (Elt F) (zeroFill arg4) = k0_pay8 := by
  unfold zeroFill
  rw [View.read_writes_eq_canon _ _ _ (fun y => ⟨_, List.mem_singleton_self _,
    View.mem_set_unit_zero hz3 inb_S64x128x128_S64x128x128_0_0_0 y⟩), View.canon_unit_zero (S := S64x128x128) hz3]

/-- The fill is zero at the ideal values. -/
theorem pay8_apply (j : S64x128x128.Idx) : k0_pay8 (F := Ideal) j = 0 := by
  unfold k0_pay8
  rw [shapeCast_self]
  exact Ideal.ofBits_zero_f32

/-- What trip `k` adds at row `r`, high part `h`, low part `l`: its two sums over the chunk's peaks. -/
def tripSum (x0 x1 : Vec Ideal S64x1024 .f32) (r : Fin 64) (h l : Fin 128) (k : Fin 8) : Ideal .f32 :=
  (∑ p : Fin 128, Cert.Hist.hot (IntOp.shrsi .vector (Cert.Hist.binOf (x0 (ix2 r (Cert.Hist.cat k p)))) 7#32) h
      * (Cert.Hist.hot (IntOp.andi (Cert.Hist.binOf (x0 (ix2 r (Cert.Hist.cat k p)))) 127#32) l
          * Cert.Hist.contrib (x0 (ix2 r (Cert.Hist.cat k p))) (x1 (ix2 r (Cert.Hist.cat k p)))))
    + ∑ p : Fin 128, Cert.Hist.hot (IntOp.shrsi .vector (Cert.Hist.binOf (x0 (ix2 r (Cert.Hist.cat k p)))) 7#32) h
      * (Cert.Hist.hot (IntOp.andi (Cert.Hist.binOf (x0 (ix2 r (Cert.Hist.cat k p)))) 127#32) l
          * (Cert.Hist.contrib (x0 (ix2 r (Cert.Hist.cat k p))) (x1 (ix2 r (Cert.Hist.cat k p)))
              - Cert.Hist.contrib (x0 (ix2 r (Cert.Hist.cat k p))) (x1 (ix2 r (Cert.Hist.cat k p)))))

/-- One more trip adds its two sums. -/
theorem acc_succ (arg1 : Memref sig .tc .vmem S64x1024 .f32) (harg1 : arg1.IsWhole) (arg2 : Memref sig .tc .vmem S64x1024 .f32) (harg2 : arg2.IsWhole)
    (arg4 : Memref sig .tc .vmem S64x128x128 .f32) (x0 x1 : Vec Ideal S64x1024 .f32) (r : Fin 64) (h l : Fin 128) (n : ℕ) (hn8 : n < 8) :
    accAfter (F := Ideal) arg1 arg2 arg4 (harg1.unread x0) (harg2.unread x1) (zeroFill arg4) (n + 1) (ix3 r h l)
      = accAfter (F := Ideal) arg1 arg2 arg4 (harg1.unread x0) (harg2.unread x1) (zeroFill arg4) n (ix3 r h l)
        + tripSum x0 x1 r h l ⟨n, hn8⟩ := by
  have hlt : n < k0_t1_loop.trips := by rw [trips_eq]; exact hn8
  have e : accAfter (F := Ideal) arg1 arg2 arg4 (harg1.unread x0) (harg2.unread x1) (zeroFill arg4) (n + 1)
      = tripVal (chunk arg1 (harg1.unread x0) ⟨n, hlt⟩) (chunk arg2 (harg2.unread x1) ⟨n, hlt⟩)
          (accAfter (F := Ideal) arg1 arg2 arg4 (harg1.unread x0) (harg2.unread x1) (zeroFill arg4) n) := by
    rw [accAfter]; exact dif_pos hlt
  rw [e, tripVal_apply, add_assoc]
  refine congrArg _ ?_
  unfold tripSum
  have c1 : ∀ p : Fin 128, chunk arg1 (harg1.unread x0) ⟨n, hlt⟩ (ix2 r p) = x0 (ix2 r (Cert.Hist.cat ⟨n, hn8⟩ p)) :=
    fun p => chunk_apply arg1 harg1 x0 ⟨n, hlt⟩ r p hn8
  have c2 : ∀ p : Fin 128, chunk arg2 (harg2.unread x1) ⟨n, hlt⟩ (ix2 r p) = x1 (ix2 r (Cert.Hist.cat ⟨n, hn8⟩ p)) :=
    fun p => chunk_apply arg2 harg2 x1 ⟨n, hlt⟩ r p hn8
  simp only [c1, c2]

/-- After `n ≤ 8` trips from the zero fill the accumulator holds the first `n` trips' sums. -/
theorem acc_apply (arg1 : Memref sig .tc .vmem S64x1024 .f32) (harg1 : arg1.IsWhole) (arg2 : Memref sig .tc .vmem S64x1024 .f32) (harg2 : arg2.IsWhole)
    (arg4 : Memref sig .tc .vmem S64x128x128 .f32) (x0 x1 : Vec Ideal S64x1024 .f32) (r : Fin 64) (h l : Fin 128) (n : ℕ) (hn : n ≤ 8) :
    accAfter (F := Ideal) arg1 arg2 arg4 (harg1.unread x0) (harg2.unread x1) (zeroFill arg4) n (ix3 r h l)
      = ∑ k ∈ Finset.range n, if hk : k < 8 then tripSum x0 x1 r h l ⟨k, hk⟩ else 0 := by
  induction n with
  | zero =>
    have e0 : accAfter (F := Ideal) arg1 arg2 arg4 (harg1.unread x0) (harg2.unread x1) (zeroFill arg4) 0
        = arg4.view.read (Elt Ideal) (zeroFill arg4) := by rw [accAfter]
    rw [e0, read_zeroFill, pay8_apply, Finset.sum_range_zero]
  | succ n ih =>
    have hn8 : n < 8 := by omega
    rw [acc_succ arg1 harg1 arg2 harg2 arg4 x0 x1 r h l n hn8, ih (by omega), Finset.sum_range_succ, dif_pos hn8]

/-- What the body leaves in the output block, for nonnegative real intensities. -/
theorem block_hist (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x9900 .f32) (harg3 : arg3.IsWhole) (arg4 : Memref sig .tc .vmem S64x128x128 .f32) (harg4 : arg4.IsWhole) (x0 : Vec Ideal S64x1024 .f32) (x1 : Vec Ideal S64x1024 .f32)
    (hx1 : ∀ j, ∃ r : ℝ, 0 ≤ r ∧ x1 j = ((r : EReal) : Ideal .f32)) :
    out0_A_2 (F := Ideal) c i arg1 harg1 arg2 harg2 arg3 harg3 arg4 harg4 x0 x1 = tileHist x0 x1 := by
  rw [out_block]
  funext y
  have hy0 : (y 0).val < 64 := (y 0).isLt
  have hy1 : (y 1).val < 9900 := (y 1).isLt
  have hacc := acc_apply arg1 harg1 arg2 harg2 arg4 x0 x1 ⟨(y 0).val, hy0⟩ ⟨(y 1).val / 128, by omega⟩
    ⟨(y 1).val % 128, Nat.mod_lt _ (by decide)⟩ 8 le_rfl
  have hs := Cert.Hist.hist_sum (fun q => Cert.Hist.binOf (x0 (ix2 ⟨(y 0).val, hy0⟩ q))) (fun q => Cert.Hist.binOf_le _)
    (fun q => Cert.Hist.contrib (x0 (ix2 ⟨(y 0).val, hy0⟩ q)) (x1 (ix2 ⟨(y 0).val, hy0⟩ q)))
    (fun q => by obtain ⟨v, hv, e⟩ := hx1 (ix2 ⟨(y 0).val, hy0⟩ q); rw [e]; exact Cert.Hist.contrib_real _ v hv)
    ⟨(y 1).val / 128, by omega⟩ ⟨(y 1).val % 128, Nat.mod_lt _ (by decide)⟩
  simp only [Nat.div_add_mod] at hs
  rw [Finset.sum_range] at hacc
  simp only [Fin.is_lt, dite_true] at hacc
  unfold blockFn tileHist
  rw [show k0_t1_loop.trips = 8 from trips_eq]
  exact (hacc.trans hs)

end Cert.KernelIdeal.HistK

end
-- ==== Proof.KArray.lean ====
/-
  From the 64 row tiles to the whole array, and the kernel's run with its result named.

  Grid point `t` stages rows `[64 t, 64 t + 64)` of the two argument arrays whole (all 1024 columns) and writes back rows
  `[64 t, 64 t + 64)` of the result (all 9900 columns). What it writes back is the binned spectrum of its tile, and a
  row's bins depend on that row's peaks only, so it is the block of `hist` of the whole arguments; the 64 blocks cover
  the 4096 rows. Hence after the run the result array is `hist` of the argument arrays, which are unchanged.
-/
import proofs.«406923_j42545946034791_3_alg».proof.Proof.KernelIdealValue
import proofs.«406923_j42545946034791_3_alg».proof.Proof.KBlock
import Idealize.ShloMosaic.Lib.Pipeline.Value

noncomputable section

namespace Cert.KernelIdeal.HistK

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 64 grid points: each window's block index is the point's number on the row axis
    and zero on the column axis. -/
theorem rowTile_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A row's bins depend on that row's peaks only: where a tile's row agrees with a row of the arrays peak by peak,
    the tile's spectrum on that row is the arrays' on theirs, column by column. -/
theorem tileHist_apply_eq_hist (x0 x1 : Vec Ideal S64x1024 .f32) (a0 a1 : FVec Ideal Cert.Hist.Rows .f32)
    (y : S64x9900.Idx) (i : Cert.Hist.Bins.Idx)
    (h0 : ∀ q : Fin 1024, x0 (ix2 (y 0) q) = a0 (ix2 (i 0) q))
    (h1 : ∀ q : Fin 1024, x1 (ix2 (y 0) q) = a1 (ix2 (i 0) q))
    (hy : (y 1).val = (i 1).val) :
    tileHist x0 x1 y = Cert.Hist.hist a0 a1 i := by
  unfold tileHist Cert.Hist.hist
  refine Finset.sum_congr rfl fun q _ => ?_
  rw [h0 q, h1 q, hy]

/-- The first input window's block at point `t` is rows `64 t … 64 t + 63` of the first argument. -/
theorem iblk0_rows (c : Dev nD) (t : Fin cfg0.N) (z : S64x1024.Idx) (k : S4096x1024.Idx)
    (hk0 : (k 0).val = 64 * t.val + (z 0).val) (hk1 : (k 1).val = (z 1).val) :
    (iblk m c 0 t : Vec Ideal S64x1024 .f32) z = (m ((c : Thread nD τ).loc main_arg0) : S4096x1024.Idx → Elt Ideal .f32) k := by
  obtain ⟨e0, e1, -, -, -, -⟩ := rowTile_idx_facts t
  show V m c main_arg0 (((cfg0.win 0).blk t).view.emb z) = V m c main_arg0 k
  refine congrArg _ (funext fun a => Fin.ext ?_)
  match a with
  | ⟨0, _⟩ => show win0_0.index t (0 : Fin 2) * 64 + 1 * (z 0).val = (k 0).val; rw [e0, hk0]; omega
  | ⟨1, _⟩ => show win0_0.index t (1 : Fin 2) * 1024 + 1 * (z 1).val = (k 1).val; rw [e1, hk1]; omega

/-- The second input window's block at point `t` is rows `64 t … 64 t + 63` of the second argument. -/
theorem iblk1_rows (c : Dev nD) (t : Fin cfg0.N) (z : S64x1024.Idx) (k : S4096x1024.Idx)
    (hk0 : (k 0).val = 64 * t.val + (z 0).val) (hk1 : (k 1).val = (z 1).val) :
    (iblk m c 1 t : Vec Ideal S64x1024 .f32) z = (m ((c : Thread nD τ).loc main_arg1) : S4096x1024.Idx → Elt Ideal .f32) k := by
  obtain ⟨-, -, e0, e1, -, -⟩ := rowTile_idx_facts t
  show V m c main_arg1 (((cfg0.win 1).blk t).view.emb z) = V m c main_arg1 k
  refine congrArg _ (funext fun a => Fin.ext ?_)
  match a with
  | ⟨0, _⟩ => show win0_1.index t (0 : Fin 2) * 64 + 1 * (z 0).val = (k 0).val; rw [e0, hk0]; omega
  | ⟨1, _⟩ => show win0_1.index t (1 : Fin 2) * 1024 + 1 * (z 1).val = (k 1).val; rw [e1, hk1]; omega

/-- Where the output window's block at point `t` puts its entry `y`: row `64 t + y 0`, column `y 1`. -/
theorem outBlk_emb_coords (t : Fin cfg0.N) (y : S64x9900.Idx) :
    ((((cfg0.win 2).blk t).view.emb y : S4096x9900.Idx) 0).val = 64 * t.val + (y 0).val
    ∧ ((((cfg0.win 2).blk t).view.emb y : S4096x9900.Idx) 1).val = (y 1).val := by
  obtain ⟨-, -, -, -, e0, e1⟩ := rowTile_idx_facts t
  constructor
  · show win0_2.index t (0 : Fin 2) * 64 + 1 * (y 0).val = _; rw [e0]; omega
  · show win0_2.index t (1 : Fin 2) * 9900 + 1 * (y 1).val = _; rw [e1]; omega

/-- What point `t` writes back is block `t` of the binned spectrum of the whole argument arrays: the body leaves the
    spectrum of its tile, the tile's rows are rows `64 t … 64 t + 63` of the arguments, and the block puts its row `r`
    at row `64 t + r` of the result. -/
theorem flushed_eq_hist
    (hit : ∀ c : Dev nD, ∀ j, ∃ r : ℝ, 0 ≤ r ∧ m ((c : Thread nD τ).loc main_arg1) j = ((r : EReal) : Ideal .f32))
    (c : Dev nD) (t : Fin cfg0.N) :
    (dats m 0 c).flushed 2 t = ((cfg0.win 2).blk t).view.read (Elt Ideal)
      (Cert.Hist.hist (m ((c : Thread nD τ).loc main_arg0)) (m ((c : Thread nD τ).loc main_arg1))) := by
  have hx1 : ∀ j, ∃ r : ℝ, 0 ≤ r ∧ (iblk m c 1 t : Vec Ideal S64x1024 .f32) j = ((r : EReal) : Ideal .f32) :=
    fun j => hit c (((cfg0.win 1).blk t).view.emb j)
  rw [flushed2_A, block_hist _ _ _ _ _ _ _ _ _ _ _ _ hx1]
  funext y
  obtain ⟨r0, r1⟩ := outBlk_emb_coords t y
  show tileHist (iblk m c 0 t) (iblk m c 1 t) y = Cert.Hist.hist _ _ (((cfg0.win 2).blk t).view.emb y)
  refine tileHist_apply_eq_hist _ _ _ _ y _ (fun q => iblk0_rows m c t _ _ ?_ ?_) (fun q => iblk1_rows m c t _ _ ?_ ?_) r1.symm
  · exact r0
  · rfl
  · exact r0
  · rfl

/-- An index of the result array is in point `t`'s block iff each coordinate is in the block's range on its axis. -/
theorem mem_outBlk (t : Fin cfg0.N) (i : S4096x9900.Idx) :
    i ∈ ((cfg0.win 2).blk t).view.set ↔ ∀ a : Fin 2, win0_2.index t a * S64x9900.size a ≤ (i a).val ∧ (i a).val < win0_2.index t a * S64x9900.size a + S64x9900.size a := by
  show i ∈ ((View.whole main_v0).slice (win0_2.rect t)).set ↔ _
  rw [View.set_slice_whole, Rect.mem_set_unit]
  exact Iff.rfl

/-- The 64 blocks cover the result array: row `r` is in the block of point `r / 64`, whose columns are all 9900. -/
theorem outBlk_cover (i : S4096x9900.Idx) :
    ∃ t : Fin cfg0.N, (cfg0.win 2).flush t = true ∧ i ∈ ((cfg0.win 2).blk t).view.set := by
  have hi0 : (i 0).val < 4096 := (i 0).isLt
  have hi1 : (i 1).val < 9900 := (i 1).isLt
  have hN : cfg0.N = 64 := N_0
  obtain ⟨t, ht⟩ : ∃ t : Fin cfg0.N, t.val = (i 0).val / 64 := ⟨⟨(i 0).val / 64, by omega⟩, rfl⟩
  obtain ⟨-, -, -, -, e0, e1⟩ := rowTile_idx_facts t
  refine ⟨t, flush0_2 t, ?_⟩
  rw [mem_outBlk]
  intro a
  match a with
  | ⟨0, _⟩ => show win0_2.index t (0 : Fin 2) * 64 ≤ (i 0).val ∧ (i 0).val < win0_2.index t (0 : Fin 2) * 64 + 64; rw [e0]; omega
  | ⟨1, _⟩ => show win0_2.index t (1 : Fin 2) * 9900 ≤ (i 1).val ∧ (i 1).val < win0_2.index t (1 : Fin 2) * 9900 + 9900; rw [e1]; omega

/-- So the result array ends holding the binned spectrum of the argument arrays. -/
theorem arrAt_eq_hist
    (hit : ∀ c : Dev nD, ∀ j, ∃ r : ℝ, 0 ≤ r ∧ m ((c : Thread nD τ).loc main_arg1) j = ((r : EReal) : Ideal .f32))
    (c : Dev nD) :
    (dats m 0 c).arrAt 2 cfg0.N
      = Cert.Hist.hist (m ((c : Thread nD τ).loc main_arg0)) (m ((c : Thread nD τ).loc main_arg1)) :=
  (dats m 0 c).arrAt_eq_of_cover 2 (Cert.Hist.hist (m ((c : Thread nD τ).loc main_arg0)) (m ((c : Thread nD τ).loc main_arg1)))
    (fun t _ => flushed_eq_hist m hit c t) outBlk_cover

/-- The kernel's run at the ideal values: the result array ends at the binned spectrum of the argument arrays, which
    end unchanged — when every intensity is a nonnegative real. -/
theorem kernel_run
    (hit : ∀ c : Dev nD, ∀ j, ∃ r : ℝ, 0 ≤ r ∧ m ((c : Thread nD τ).loc main_arg1) j = ((r : EReal) : Ideal .f32)) :
    θ_run defs (onTc (τ := τ) (main (F := Ideal))) ⟨m, fun _ => 0, ρ⟩ fun r => ∀ c : Dev nD,
      r.2.mem ((c : Thread nD τ).loc main_v0)
          = Cert.Hist.hist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arrAt_eq_hist m hit c), (h c).2⟩) (run_blocks m ρ)

end Cert.KernelIdeal.HistK

end
-- ==== Proof.lean ====
/-
  The certificate: a histogram of mass-spectrum peaks built by matrix products against a scatter-add.

  Each of 4096 rows holds 1024 peaks, a position `mz` and an intensity. A peak with `10 ≤ mz < 1000` adds the square
  root of its intensity to the bin `(mz − 10) / w` of its row, cut to an integer and clamped to `[0, 9899]` (`w` the
  single-precision 0.1); the result is 4096 × 9900. The reference scatters `intensity ^ (1/2)` into a zero array at the
  pairs (row, bin). The kernel takes 64 rows at a time and, over 8 chunks of 128 peaks, accumulates into a
  64 × 128 × 128 array the products of the indicator of `bin ≫ 7` with the indicator of `bin & 127` scaled by the
  contribution, the row a batch axis and the peak axis contracted — twice per chunk, once with the contribution and
  once with the residual of its two-term split, which is zero at the ideal values — and then copies plane `h` of the
  accumulator to columns `[128 h, 128 h + 128)`.

  At the ideal values the two agree when every intensity is a nonnegative real: the root and the power one half are then
  one number; `(bin ≫ 7, bin & 127)` is `(bin / 128, bin % 128)` for a bin below 2¹⁴, so the product of the indicators
  is the indicator of `bin = 128 h + l`; the 8 chunks of 128 are the row's 1024 peaks; and the 64 tiles of 64 rows are
  the 4096 rows. Nonnegativity is what the precondition adds to finiteness: on a negative intensity the kernel's root
  is `⊥` while the reference's real power is a real number, and the reference itself is undefined there.

  The frames of the two kernel programs are the library's pipeline run over the body's run; the reference's frame is
  its run with the result dropped. The idealization's one rewrite (a narrowing conversion followed by the widening one
  is the identity at the ideal values) is the rule's own statement.
-/
import proofs.«406923_j42545946034791_3_alg».proof.Defs
import proofs.«406923_j42545946034791_3_alg».proof.Proof.Gen.Kernel
import proofs.«406923_j42545946034791_3_alg».proof.Proof.Gen.KernelIdeal
import proofs.«406923_j42545946034791_3_alg».proof.Proof.Gen.ReferenceIdeal
import proofs.«406923_j42545946034791_3_alg».proof.Proof.Gen.Pre_finite_inputs
import proofs.«406923_j42545946034791_3_alg».proof.Proof.KernelFrame
import proofs.«406923_j42545946034791_3_alg».proof.Proof.KernelIdealFrame
import proofs.«406923_j42545946034791_3_alg».proof.Proof.RefRun
import proofs.«406923_j42545946034791_3_alg».proof.Proof.RefRead
import proofs.«406923_j42545946034791_3_alg».proof.Proof.RefSide
import proofs.«406923_j42545946034791_3_alg».proof.Proof.PreDecode
import proofs.«406923_j42545946034791_3_alg».proof.Proof.KArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: narrowing to the 16-bit format and widening back is the identity at the
    ideal values, and the rounding through that format at the word level. -/
theorem preserves : Cert.preserves_Kernel_KernelIdeal :=
  IdealRules.truncf_extf.statement Cert.KernelIdeal.S64x128 .f32 .bf16

/-- Both programs end at the binned spectrum of the argument arrays: the kernel tile by tile, the reference by its
    scatter; the precondition makes every intensity a nonnegative real, on either side's copy of the arguments. -/
theorem algebraic : Cert.algebraic_KernelIdeal_ReferenceIdeal := by
  intro m ρ m' ρ' hpre hagree
  have hit : ∀ c : Dev Cert.KernelIdeal.nD, ∀ j, ∃ r : ℝ, 0 ≤ r ∧
      m ((c : Thread Cert.KernelIdeal.nD Cert.KernelIdeal.τ).loc Cert.KernelIdeal.main_arg1) j = ((r : EReal) : Ideal .f32) :=
    fun c => Cert.Hist.intensities_nonneg _ _ (hpre c)
  refine ⟨fun c => Cert.Hist.hist (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.HistK.kernel_run m ρ hit, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v31_eq, (hagree c).1, (hagree c).2]
  exact Cert.Hist.Ref.result_eq _ _ (hit c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
